-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S100000 : Shape := ⟨1, ![100000]⟩
abbrev S2x1500000 : Shape := ⟨2, ![2, 1500000]⟩
abbrev S2x100000 : Shape := ⟨2, ![2, 100000]⟩
abbrev S50000x64 : Shape := ⟨2, ![50000, 64]⟩
abbrev S100000x64 : Shape := ⟨2, ![100000, 64]⟩
abbrev S64x64 : Shape := ⟨2, ![64, 64]⟩
abbrev S16x64x64 : Shape := ⟨3, ![16, 64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S16x64x64 : S_.BroadcastsInDim S16x64x64 (![] : Fin 0 → Fin S16x64x64.rank)
  reducesTo_S16x64x64_S_d0_1_2 : S16x64x64.ReducesTo [0, 1, 2] S_

variable [Facts]

def fn_part1 {F : FTy → Type} [FloatOps F] (main_v13 : IVec S_ 1) (main_v16 : IVec S16x64x64 1) : IVec S_ 1 :=
  let main_c_5 : IVec S_ 1 := constantI S_ 1 1#1
  let main_v17 : IVec S_ 1 := (fun x v => Host.reduce IntOp.andi x v reducesTo_S16x64x64_S_d0_1_2 h_S_) main_v16 main_c_5
  let main_v18 : IVec S_ 1 := andi main_v13 main_v17
  main_v18

def fn {F : FTy → Type} [FloatOps F] (main_arg0 : IVec S50000 32) (main_arg1 : IVec S100000 32) (main_arg2 : IVec S2x1500000 32) (main_arg3 : IVec S2x100000 32) (main_arg4 : IVec S100000 32) (main_arg5 : FVec F S50000x64 .f32) (main_arg6 : FVec F S100000x64 .f32) (main_arg7 : FVec F S64x64 .f32) (main_arg8 : FVec F S16x64x64 .f32) : IVec S_ 1 :=
  let main_v0 : FVec F S50000x64 .f32 := Host.absf main_arg5
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg7
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S16x64x64 .f32 := Host.absf main_arg8
  let main_cst_4 : FVec F S_ .f32 := constant S_ .f32 0x7F800000#32
  let main_v15 : FVec F S16x64x64 .f32 := broadcastInDim S16x64x64 ![] bcast_S_S16x64x64 main_cst_4
  let main_v16 : IVec S16x64x64 1 := cmpf .olt main_v14 main_v15
  fn_part1 (F := F) main_v13 main_v16
-- ==== Kernel.lean ====
abbrev S50000 : Shape := ⟨1, ![50000]⟩
abbrev S100000 : Shape := ⟨1, ![100000]⟩
abbrev S2x1500000 : Shape := ⟨2, ![2, 1500000]⟩
abbrev S2x100000 : Shape := ⟨2, ![2, 100000]⟩
abbrev S50000x64 : Shape := ⟨2, ![50000, 64]⟩
abbrev S100000x64 : Shape := ⟨2, ![100000, 64]⟩
abbrev S64x64 : Shape := ⟨2, ![64, 64]⟩
abbrev S16x64x64 : Shape := ⟨3, ![16, 64, 64]⟩
abbrev S_ : Shape := ⟨0, ![]⟩
abbrev S50000x1 : Shape := ⟨2, ![50000, 1]⟩
abbrev S100000x1 : Shape := ⟨2, ![100000, 1]⟩
abbrev S150000x64 : Shape := ⟨2, ![150000, 64]⟩
abbrev S15000x64 : Shape := ⟨2, ![15000, 64]⟩
abbrev S1x1500000 : Shape := ⟨2, ![1, 1500000]⟩
abbrev S1500000 : Shape := ⟨1, ![1500000]⟩
abbrev S1500000x1 : Shape := ⟨2, ![1500000, 1]⟩
abbrev S1500000x64 : Shape := ⟨2, ![1500000, 64]⟩
abbrev S1 : Shape := ⟨1, ![1]⟩
abbrev S1x1 : Shape := ⟨2, ![1, 1]⟩

abbrev nBuf : Space → Nat
  | .hbm => 88
  | .vmem => 5
  | .smem => 0
  | _ => 0

abbrev bufTy : (tb : Table) → Fin (tcTables nBuf tb) → BufTy
  | .hbm, ⟨0, _⟩ => ⟨S50000, .i32⟩
  | .hbm, ⟨1, _⟩ => ⟨S100000, .i32⟩
  | .hbm, ⟨2, _⟩ => ⟨S2x1500000, .i32⟩
  | .hbm, ⟨3, _⟩ => ⟨S2x100000, .i32⟩
  | .hbm, ⟨4, _⟩ => ⟨S100000, .i32⟩
  | .hbm, ⟨5, _⟩ => ⟨S50000x64, .f32⟩
  | .hbm, ⟨6, _⟩ => ⟨S100000x64, .f32⟩
  | .hbm, ⟨7, _⟩ => ⟨S64x64, .f32⟩
  | .hbm, ⟨8, _⟩ => ⟨S16x64x64, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x64, .f32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x64, .f32⟩
  | .hbm, ⟨27, _⟩ => ⟨S150000x64, .f32⟩
  | .hbm, ⟨28, _⟩ => ⟨S150000x64, .f32⟩
  | .hbm, ⟨29, _⟩ => ⟨S1x1500000, .i32⟩
  | .hbm, ⟨30, _⟩ => ⟨S1500000, .i32⟩
  | .hbm, ⟨31, _⟩ => ⟨S1x1500000, .i32⟩
  | .hbm, ⟨32, _⟩ => ⟨S1500000, .i32⟩
  | .hbm, ⟨33, _⟩ => ⟨S_, .i32⟩
  | .hbm, ⟨34, _⟩ => ⟨S1500000, .i32⟩
  | .hbm, ⟨35, _⟩ => ⟨S1500000, .i1⟩
  | .hbm, ⟨36, _⟩ => ⟨S_, .i32⟩
  | .hbm, ⟨37, _⟩ => ⟨S1500000, .i32⟩
  | .hbm, ⟨38, _⟩ => ⟨S1500000, .i32⟩
  | .hbm, ⟨39, _⟩ => ⟨S1500000, .i32⟩
  | .hbm, ⟨40, _⟩ => ⟨S1500000x1, .i32⟩
  | .hbm, ⟨41, _⟩ => ⟨S1500000x64, .f32⟩
  | .hbm, ⟨42, _⟩ => ⟨S_, .i32⟩
  | .hbm, ⟨43, _⟩ => ⟨S1500000, .i32⟩
  | .hbm, ⟨44, _⟩ => ⟨S1500000, .i1⟩
  | .hbm, ⟨45, _⟩ => ⟨S_, .i32⟩
  | .hbm, ⟨46, _⟩ => ⟨S1500000, .i32⟩
  | .hbm, ⟨47, _⟩ => ⟨S1500000, .i32⟩
  | .hbm, ⟨48, _⟩ => ⟨S1500000, .i32⟩
  | .hbm, ⟨49, _⟩ => ⟨S1500000x1, .i32⟩
  | .hbm, ⟨50, _⟩ => ⟨S1500000x64, .f32⟩
  | .hbm, ⟨51, _⟩ => ⟨S1500000x64, .f32⟩
  | .hbm, ⟨52, _⟩ => ⟨S_, .f32⟩
  | .hbm, ⟨53, _⟩ => ⟨S1500000, .f32⟩
  | .hbm, ⟨54, _⟩ => ⟨S1500000x1, .f32⟩
  | .hbm, ⟨55, _⟩ => ⟨S_, .f32⟩
  | .hbm, ⟨56, _⟩ => ⟨S_, .f32⟩
  | .hbm, ⟨57, _⟩ => ⟨S1500000x1, .f32⟩
  | .hbm, ⟨58, _⟩ => ⟨S1500000x1, .i1⟩
  | .hbm, ⟨59, _⟩ => ⟨S_, .f32⟩
  | .hbm, ⟨60, _⟩ => ⟨S1500000x1, .f32⟩
  | .hbm, ⟨61, _⟩ => ⟨S1500000x1, .f32⟩
  | .hbm, ⟨62, _⟩ => ⟨S1500000x1, .f32⟩
  | .hbm, ⟨63, _⟩ => ⟨S_, .f32⟩
  | .hbm, ⟨64, _⟩ => ⟨S1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S1500000x1, .f32⟩
  | .hbm, ⟨70, _⟩ => ⟨S1500000x1, .f32⟩
  | .hbm, ⟨71, _⟩ => ⟨S1500000x1, .f32⟩
  | .hbm, ⟨72, _⟩ => ⟨S_, .f32⟩
  | .hbm, ⟨73, _⟩ => ⟨S1, .f32⟩
  | .hbm, ⟨74, _⟩ => ⟨S1x1, .f32⟩
  | .hbm, ⟨75, _⟩ => ⟨S1500000x1, .f32⟩
  | .hbm, ⟨76, _⟩ => ⟨S1500000x1, .f32⟩
  | .hbm, ⟨77, _⟩ => ⟨S1500000x64, .f32⟩
  | .hbm, ⟨78, _⟩ => ⟨S1500000x64, .f32⟩
  | .hbm, ⟨79, _⟩ => ⟨S_, .f32⟩
  | .hbm, ⟨80, _⟩ => ⟨S150000x64, .f32⟩
  | .hbm, ⟨81, _⟩ => ⟨S1500000x1, .i32⟩
  | .hbm, ⟨82, _⟩ => ⟨S150000x64, .f32⟩
  | .hbm, ⟨83, _⟩ => ⟨S_, .f32⟩
  | .hbm, ⟨84, _⟩ => ⟨S150000x64, .f32⟩
  | .hbm, ⟨85, _⟩ => ⟨S150000x64, .f32⟩
  | .hbm, ⟨86, _⟩ => ⟨S50000x64, .f32⟩
  | .hbm, ⟨87, _⟩ => ⟨S100000x64, .f32⟩
  | .local _ .vmem, ⟨0, _⟩ => ⟨S15000x64, .f32⟩
  | .local _ .vmem, ⟨1, _⟩ => ⟨S15000x64, .f32⟩
  | .local _ .vmem, ⟨2, _⟩ => ⟨S64x64, .f32⟩
  | .local _ .vmem, ⟨3, _⟩ => ⟨S15000x64, .f32⟩
  | .local _ .vmem, ⟨4, _⟩ => ⟨S15000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_cst : Ref sig .tc := ⟨.hbm, 83, rfl⟩
abbrev main_call1_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S15000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S50000x64_S100000x64_S150000x64_d0 : Shape.Concatenates [S50000x64, S100000x64] S150000x64 0
  inb_S15000x64_S15000x64_0_0 : ∀ a, (![0, 0] : Fin 2 → Nat) a + S15000x64.size a ≤ S15000x64.size a
  h_S15000x64 : 0 < S15000x64.numel
  shapeCasts_S15000x64_S15000x64 : S15000x64.ShapeCasts S15000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  reducesTo_S1500000x64_S1500000_d1 : S1500000x64.ReducesTo [1] S1500000
  h_S_ : 0 < S_.numel
  bcast_S_S1500000x1 : S_.BroadcastsInDim S1500000x1 (![] : Fin 0 → Fin S1500000x1.rank)
  reducesTo_S1500000x1_S1_d0 : S1500000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  bcast_S1500000x1_S1500000x64_0_1 : S1500000x1.BroadcastsInDim S1500000x64 (![0, 1] : Fin 2 → Fin S1500000x64.rank)
  bcast_S_S150000x64 : S_.BroadcastsInDim S150000x64 (![] : Fin 0 → Fin S150000x64.rank)
  slices_S150000x64_S50000x64_0_0 : S150000x64.Slices ![0, 0] S50000x64
  slices_S150000x64_S100000x64_50000_0 : S150000x64.Slices ![50000, 0] S100000x64
  gather_S50000x64_S50000x1_S50000x64_1_0_n_n_0_1_164_wf : GatherDims.WF S50000x64 S50000x1 S50000x64 [1] [0] [] [0] [] 1 ![1, 64]
  gather_S100000x64_S100000x1_S100000x64_1_0_n_n_0_1_164_wf : GatherDims.WF S100000x64 S100000x1 S100000x64 [1] [0] [] [0] [] 1 ![1, 64]
  dot_S15000x64_S64x64_S15000x64_1_0_0_1_n_n_wf : DotDims.WF S15000x64 S64x64 S15000x64 [1] [0] [0] [1] [] []
  gather_S150000x64_S1500000x1_S1500000x64_1_0_n_n_0_1_164_wf : GatherDims.WF S150000x64 S1500000x1 S1500000x64 [1] [0] [] [0] [] 1 ![1, 64]
  scatter_S150000x64_S1500000x1_S1500000x64_1_0_0_1_wf : ScatterDims.WF S150000x64 S1500000x1 S1500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x64.size a ≤ S150000x64.size a
  hwx0_0 : ∀ i : grid0.Coords, EltTy.bits .f32 = 32 ∨ (Rect.block (s := S150000x64) S15000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S15000x64.size a ≤ S150000x64.size a
  hwx0_2 : ∀ i : grid0.Coords, EltTy.bits .f32 = 32 ∨ (Rect.block (s := S150000x64) S15000x64.size (cc0_transform_2 i) (hinb0_2 i)).WholeWords (EltTy.packing .f32)

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S15000x64_S64x64_S15000x64_1_0_0_1_n_n : DotDims S15000x64 S64x64 S15000x64 where
  lhsContracting := [1]
  rhsContracting := [0]
  lhsNonContracting := [0]
  rhsNonContracting := [1]
  lhsBatch := []
  rhsBatch := []
  wf := dot_S15000x64_S64x64_S15000x64_1_0_0_1_n_n_wf
def gather_S150000x64_S1500000x1_S1500000x64_1_0_n_n_0_1_164 : GatherDims S150000x64 S1500000x1 S1500000x64 where
  offsetDims := [1]
  collapsedSliceDims := [0]
  operandBatchingDims := []
  startIndicesBatchingDims := []
  startIndexMap := [0]
  indexVectorDim := 1
  sliceSizes := ![1, 64]
  wf := gather_S150000x64_S1500000x1_S1500000x64_1_0_n_n_0_1_164_wf
def scatter_S150000x64_S1500000x1_S1500000x64_1_0_0_1 : ScatterDims S150000x64 S1500000x1 S1500000x64 where
  updateWindowDims := [1]
  insertedWindowDims := [0]
  scatterDimsToOperandDims := [0]
  indexVectorDim := 1
  wf := scatter_S150000x64_S1500000x1_S1500000x64_1_0_0_1_wf

abbrev win0_0 : Pipeline.Window sig grid0 :=
  Pipeline.Window.ofSpec (Memref.whole main_v14) S15000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S15000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000 : Shape := ⟨1, ![50000]⟩
abbrev S100000 : Shape := ⟨1, ![100000]⟩
abbrev S2x1500000 : Shape := ⟨2, ![2, 1500000]⟩
abbrev S2x100000 : Shape := ⟨2, ![2, 100000]⟩
abbrev S50000x64 : Shape := ⟨2, ![50000, 64]⟩
abbrev S100000x64 : Shape := ⟨2, ![100000, 64]⟩
abbrev S64x64 : Shape := ⟨2, ![64, 64]⟩
abbrev S16x64x64 : Shape := ⟨3, ![16, 64, 64]⟩
abbrev S_ : Shape := ⟨0, ![]⟩
abbrev S50000x1 : Shape := ⟨2, ![50000, 1]⟩
abbrev S100000x1 : Shape := ⟨2, ![100000, 1]⟩
abbrev S150000x64 : Shape := ⟨2, ![150000, 64]⟩
abbrev S1x1500000 : Shape := ⟨2, ![1, 1500000]⟩
abbrev S1500000 : Shape := ⟨1, ![1500000]⟩
abbrev S1500000x1 : Shape := ⟨2, ![1500000, 1]⟩
abbrev S1500000x64 : Shape := ⟨2, ![1500000, 64]⟩
abbrev S1 : Shape := ⟨1, ![1]⟩
abbrev S1x1 : Shape := ⟨2, ![1, 1]⟩
abbrev S1x100000 : Shape := ⟨2, ![1, 100000]⟩
abbrev S100000x64x64 : Shape := ⟨3, ![100000, 64, 64]⟩

abbrev nBuf : Space → Nat
  | .hbm => 157
  | .vmem => 0
  | .smem => 0
  | _ => 0

abbrev hbmTy0_0 (i : Nat) : BufTy := match i % 128 with
  | 0 => ⟨S50000, .i32⟩
  | 1 => ⟨S100000, .i32⟩
  | 2 => ⟨S2x1500000, .i32⟩
  | 3 => ⟨S2x100000, .i32⟩
  | 4 => ⟨S100000, .i32⟩
  | 5 => ⟨S50000x64, .f32⟩
  | 6 => ⟨S100000x64, .f32⟩
  | 7 => ⟨S64x64, .f32⟩
  | 8 => ⟨S16x64x64, .f32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S50000x64, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S150000x64, .f32⟩
  | 28 => ⟨S1x1500000, .i32⟩
  | 29 => ⟨S1500000, .i32⟩
  | 30 => ⟨S1x1500000, .i32⟩
  | 31 => ⟨S1500000, .i32⟩
  | 32 => ⟨S_, .i32⟩
  | 33 => ⟨S1500000, .i32⟩
  | 34 => ⟨S1500000, .i1⟩
  | 35 => ⟨S_, .i32⟩
  | 36 => ⟨S1500000, .i32⟩
  | 37 => ⟨S1500000, .i32⟩
  | 38 => ⟨S1500000, .i32⟩
  | 39 => ⟨S1500000x1, .i32⟩
  | 40 => ⟨S1500000x64, .f32⟩
  | 41 => ⟨S_, .i32⟩
  | 42 => ⟨S1500000, .i32⟩
  | 43 => ⟨S1500000, .i1⟩
  | 44 => ⟨S_, .i32⟩
  | 45 => ⟨S1500000, .i32⟩
  | 46 => ⟨S1500000, .i32⟩
  | 47 => ⟨S1500000, .i32⟩
  | 48 => ⟨S1500000x1, .i32⟩
  | 49 => ⟨S1500000x64, .f32⟩
  | 50 => ⟨S1500000x64, .f32⟩
  | 51 => ⟨S1500000x64, .f32⟩
  | 52 => ⟨S1500000x64, .f32⟩
  | 53 => ⟨S_, .f32⟩
  | 54 => ⟨S1500000, .f32⟩
  | 55 => ⟨S1500000x1, .f32⟩
  | 56 => ⟨S_, .f32⟩
  | 57 => ⟨S_, .f32⟩
  | 58 => ⟨S1500000x1, .f32⟩
  | 59 => ⟨S1500000x1, .i1⟩
  | 60 => ⟨S_, .f32⟩
  | 61 => ⟨S1500000x1, .f32⟩
  | 62 => ⟨S1500000x1, .f32⟩
  | 63 => ⟨S1500000x1, .f32⟩
  | 64 => ⟨S_, .f32⟩
  | 65 => ⟨S1, .f32⟩
  | 66 => ⟨S_, .f32⟩
  | 67 => ⟨S1, .f32⟩
  | 68 => ⟨S1, .f32⟩
  | 69 => ⟨S1x1, .f32⟩
  | 70 => ⟨S1500000x1, .f32⟩
  | 71 => ⟨S1500000x1, .f32⟩
  | 72 => ⟨S1500000x1, .f32⟩
  | 73 => ⟨S_, .f32⟩
  | 74 => ⟨S1, .f32⟩
  | 75 => ⟨S1x1, .f32⟩
  | 76 => ⟨S1500000x1, .f32⟩
  | 77 => ⟨S1500000x1, .f32⟩
  | 78 => ⟨S1500000x64, .f32⟩
  | 79 => ⟨S1500000x64, .f32⟩
  | 80 => ⟨S_, .f32⟩
  | 81 => ⟨S150000x64, .f32⟩
  | 82 => ⟨S1500000x1, .i32⟩
  | 83 => ⟨S150000x64, .f32⟩
  | 84 => ⟨S1x100000, .i32⟩
  | 85 => ⟨S100000, .i32⟩
  | 86 => ⟨S1x100000, .i32⟩
  | 87 => ⟨S100000, .i32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x64, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x64, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x64x64, .f32⟩
  | 115 => ⟨S100000x64, .f32⟩
  | 116 => ⟨S100000x64, .f32⟩
  | 117 => ⟨S100000x64, .f32⟩
  | 118 => ⟨S_, .f32⟩
  | 119 => ⟨S100000, .f32⟩
  | 120 => ⟨S100000x1, .f32⟩
  | 121 => ⟨S_, .f32⟩
  | 122 => ⟨S_, .f32⟩
  | 123 => ⟨S100000x1, .f32⟩
  | 124 => ⟨S100000x1, .i1⟩
  | 125 => ⟨S_, .f32⟩
  | 126 => ⟨S100000x1, .f32⟩
  | 127 => ⟨S100000x1, .f32⟩
  | _ => ⟨S50000, .i32⟩

abbrev hbmTy0_1 (i : Nat) : BufTy := match i % 128 with
  | 0 => ⟨S100000x1, .f32⟩
  | 1 => ⟨S_, .f32⟩
  | 2 => ⟨S1, .f32⟩
  | 3 => ⟨S_, .f32⟩
  | 4 => ⟨S1, .f32⟩
  | 5 => ⟨S1, .f32⟩
  | 6 => ⟨S1x1, .f32⟩
  | 7 => ⟨S100000x1, .f32⟩
  | 8 => ⟨S100000x1, .f32⟩
  | 9 => ⟨S100000x1, .f32⟩
  | 10 => ⟨S_, .f32⟩
  | 11 => ⟨S1, .f32⟩
  | 12 => ⟨S1x1, .f32⟩
  | 13 => ⟨S100000x1, .f32⟩
  | 14 => ⟨S100000x1, .f32⟩
  | 15 => ⟨S100000x64, .f32⟩
  | 16 => ⟨S100000x64, .f32⟩
  | 17 => ⟨S_, .f32⟩
  | 18 => ⟨S100000x64, .f32⟩
  | 19 => ⟨S100000x1, .i32⟩
  | 20 => ⟨S100000x64, .f32⟩
  | 21 => ⟨S_, .i32⟩
  | 22 => ⟨S1, .i32⟩
  | 23 => ⟨S150000x64, .f32⟩
  | 24 => ⟨S_, .f32⟩
  | 25 => ⟨S150000x64, .f32⟩
  | 26 => ⟨S150000x64, .f32⟩
  | 27 => ⟨S50000x64, .f32⟩
  | 28 => ⟨S100000x64, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_v85 : Ref sig .tc := ⟨.hbm, 128, rfl⟩
abbrev main_cst_20 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_23 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_24 : Ref sig .tc := ⟨.hbm, 149, rfl⟩
abbrev main_v102 : Ref sig .tc := ⟨.hbm, 150, rfl⟩
abbrev main_v103 : Ref sig .tc := ⟨.hbm, 151, rfl⟩
abbrev main_call2_cst : Ref sig .tc := ⟨.hbm, 152, rfl⟩
abbrev main_call2_v0 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S50000x64_S100000x64_S150000x64_d0 : Shape.Concatenates [S50000x64, S100000x64] S150000x64 0
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  reducesTo_S1500000x64_S1500000_d1 : S1500000x64.ReducesTo [1] S1500000
  h_S_ : 0 < S_.numel
  bcast_S_S1500000x1 : S_.BroadcastsInDim S1500000x1 (![] : Fin 0 → Fin S1500000x1.rank)
  reducesTo_S1500000x1_S1_d0 : S1500000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  bcast_S1500000x1_S1500000x64_0_1 : S1500000x1.BroadcastsInDim S1500000x64 (![0, 1] : Fin 2 → Fin S1500000x64.rank)
  bcast_S_S150000x64 : S_.BroadcastsInDim S150000x64 (![] : Fin 0 → Fin S150000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  bcast_S_S100000x1 : S_.BroadcastsInDim S100000x1 (![] : Fin 0 → Fin S100000x1.rank)
  reducesTo_S100000x1_S1_d0 : S100000x1.ReducesTo [0] S1
  bcast_S1x1_S100000x1_0_1 : S1x1.BroadcastsInDim S100000x1 (![0, 1] : Fin 2 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S150000x64_S50000x64_0_0 : S150000x64.Slices ![0, 0] S50000x64
  slices_S150000x64_S100000x64_50000_0 : S150000x64.Slices ![50000, 0] S100000x64
  gather_S50000x64_S50000x1_S50000x64_1_0_n_n_0_1_164_wf : GatherDims.WF S50000x64 S50000x1 S50000x64 [1] [0] [] [0] [] 1 ![1, 64]
  gather_S100000x64_S100000x1_S100000x64_1_0_n_n_0_1_164_wf : GatherDims.WF S100000x64 S100000x1 S100000x64 [1] [0] [] [0] [] 1 ![1, 64]
  gather_S150000x64_S1500000x1_S1500000x64_1_0_n_n_0_1_164_wf : GatherDims.WF S150000x64 S1500000x1 S1500000x64 [1] [0] [] [0] [] 1 ![1, 64]
  dot_S1500000x64_S64x64_S1500000x64_1_0_0_1_n_n_wf : DotDims.WF S1500000x64 S64x64 S1500000x64 [1] [0] [0] [1] [] []
  scatter_S150000x64_S1500000x1_S1500000x64_1_0_0_1_wf : ScatterDims.WF S150000x64 S1500000x1 S1500000x64 [1] [0] [0] 1
  gather_S16x64x64_S100000x1_S100000x64x64_12_0_n_n_0_1_16464_wf : GatherDims.WF S16x64x64 S100000x1 S100000x64x64 [1, 2] [0] [] [0] [] 1 ![1, 64, 64]
  dot_S100000x64_S100000x64x64_S100000x64_1_1_n_2_0_0_wf : DotDims.WF S100000x64 S100000x64x64 S100000x64 [1] [1] [] [2] [0] [0]
  dot_S100000x64_S64x64_S100000x64_1_0_0_1_n_n_wf : DotDims.WF S100000x64 S64x64 S100000x64 [1] [0] [0] [1] [] []
  scatter_S100000x64_S100000x1_S100000x64_1_0_0_1_wf : ScatterDims.WF S100000x64 S100000x1 S100000x64 [1] [0] [0] 1
  scatter_S150000x64_S1_S100000x64_01_n_0_0_wf : ScatterDims.WF S150000x64 S1 S100000x64 [0, 1] [] [0] 0

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S150000x64_S1500000x1_S1500000x64_1_0_n_n_0_1_164 : GatherDims S150000x64 S1500000x1 S1500000x64 where
  offsetDims := [1]
  collapsedSliceDims := [0]
  operandBatchingDims := []
  startIndicesBatchingDims := []
  startIndexMap := [0]
  indexVectorDim := 1
  sliceSizes := ![1, 64]
  wf := gather_S150000x64_S1500000x1_S1500000x64_1_0_n_n_0_1_164_wf
def dot_S1500000x64_S64x64_S1500000x64_1_0_0_1_n_n : DotDims S1500000x64 S64x64 S1500000x64 where
  lhsContracting := [1]
  rhsContracting := [0]
  lhsNonContracting := [0]
  rhsNonContracting := [1]
  lhsBatch := []
  rhsBatch := []
  wf := dot_S1500000x64_S64x64_S1500000x64_1_0_0_1_n_n_wf
def scatter_S150000x64_S1500000x1_S1500000x64_1_0_0_1 : ScatterDims S150000x64 S1500000x1 S1500000x64 where
  updateWindowDims := [1]
  insertedWindowDims := [0]
  scatterDimsToOperandDims := [0]
  indexVectorDim := 1
  wf := scatter_S150000x64_S1500000x1_S1500000x64_1_0_0_1_wf
def gather_S16x64x64_S100000x1_S100000x64x64_12_0_n_n_0_1_16464 : GatherDims S16x64x64 S100000x1 S100000x64x64 where
  offsetDims := [1, 2]
  collapsedSliceDims := [0]
  operandBatchingDims := []
  startIndicesBatchingDims := []
  startIndexMap := [0]
  indexVectorDim := 1
  sliceSizes := ![1, 64, 64]
  wf := gather_S16x64x64_S100000x1_S100000x64x64_12_0_n_n_0_1_16464_wf
def dot_S100000x64_S100000x64x64_S100000x64_1_1_n_2_0_0 : DotDims S100000x64 S100000x64x64 S100000x64 where
  lhsContracting := [1]
  rhsContracting := [1]
  lhsNonContracting := []
  rhsNonContracting := [2]
  lhsBatch := [0]
  rhsBatch := [0]
  wf := dot_S100000x64_S100000x64x64_S100000x64_1_1_n_2_0_0_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def scatter_S150000x64_S1_S100000x64_01_n_0_0 : ScatterDims S150000x64 S1 S100000x64 where
  updateWindowDims := [0, 1]
  insertedWindowDims := []
  scatterDimsToOperandDims := [0]
  indexVectorDim := 0
  wf := scatter_S150000x64_S1_S100000x64_01_n_0_0_wf

class Facts : Prop extends Facts₀ where

variable [Facts]
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.LibPlainDot.lean ====
/-
  A plain matrix product read at an index.

  The dimension numbers "contract the left operand's axis 1 with the right operand's axis 0, keep the left operand's
  axis 0 and the right operand's axis 1, no batch axes" describe the product of an `[M, K]` matrix by a `[K, N]`
  matrix. At result index `(a, b)` and contraction position `k` the left operand is read at `(a, k)` and the right
  operand at `(k, b)`: on a kept axis the operand index is the result's coordinate, on the contracted axis it is the
  contraction position's one coordinate (`lhs_row`, `lhs_col`, `rhs_row`, `rhs_col`).

  At the extended reals the host's `dot_general` is the sum of the products over the contraction index, and so is the
  kernel's matrix unit when it accumulates into the zero splat. The contraction index has one axis of extent `K`, so
  that sum is re-indexed by `Fin K`: both products, read at `(a, b)`, are `∑ k : Fin K, l (a, k) * r (k, b)`
  (`dotGeneral_plain`, `matmul_zero_plain`).
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.LibPlainDot

open Idealize.ShloMosaic Idealize.ShloMosaic.ValueIdx

section Axes
variable {M K N : Nat}
  (wf : DotDims.WF ⟨2, ![M, K]⟩ ⟨2, ![K, N]⟩ ⟨2, ![M, N]⟩ [1] [0] [0] [1] [] [])

/-- The dimension numbers of the plain product, with whatever evidence of their well-formedness. -/
abbrev plainDims : DotDims ⟨2, ![M, K]⟩ ⟨2, ![K, N]⟩ ⟨2, ![M, N]⟩ := ⟨[1], [0], [0], [1], [], [], wf⟩

/-- The left operand's row is the result's row. -/
theorem lhs_row (j : (⟨2, ![M, N]⟩ : Shape).Idx) (k : (plainDims wf).contr.Idx) :
    ((plainDims wf).lhsIdx j k 0).val = (j 0).val := rfl

/-- The left operand's column is the contraction position. -/
theorem lhs_col (j : (⟨2, ![M, N]⟩ : Shape).Idx) (k : (plainDims wf).contr.Idx) :
    ((plainDims wf).lhsIdx j k 1).val = (k ⟨0, Nat.one_pos⟩).val :=
  (plainDims wf).lhsIdx_val_of_single rfl j k

/-- The right operand's row is the contraction position. -/
theorem rhs_row (j : (⟨2, ![M, N]⟩ : Shape).Idx) (k : (plainDims wf).contr.Idx) :
    ((plainDims wf).rhsIdx j k 0).val = (k ⟨0, Nat.one_pos⟩).val :=
  (plainDims wf).rhsIdx_val_of_single rfl j k

/-- The right operand's column is the result's column. -/
theorem rhs_col (j : (⟨2, ![M, N]⟩ : Shape).Idx) (k : (plainDims wf).contr.Idx) :
    ((plainDims wf).rhsIdx j k 1).val = (j 1).val := rfl

/-- The contraction index of the plain product is its one coordinate, below `K`. -/
abbrev contrFin : (plainDims wf).contr.Idx ≃ Fin K := contrEquiv1 (plainDims wf) K rfl rfl

/-- At result `(a, b)` and contraction position `k` the left operand is read at `(a, k)`. -/
theorem lhsIdx_eq (a : Fin M) (b : Fin N) (k : Fin K) :
    (plainDims wf).lhsIdx (ix2 a b) ((contrFin wf).symm k) = ix2 a k := by
  funext ax
  match ax with
  | ⟨0, _⟩ => exact Fin.ext (lhs_row wf _ _)
  | ⟨1, _⟩ => exact Fin.ext ((lhs_col wf _ _).trans (contrEquiv1_symm_val (plainDims wf) K rfl rfl k))

/-- At result `(a, b)` and contraction position `k` the right operand is read at `(k, b)`. -/
theorem rhsIdx_eq (a : Fin M) (b : Fin N) (k : Fin K) :
    (plainDims wf).rhsIdx (ix2 a b) ((contrFin wf).symm k) = ix2 k b := by
  funext ax
  match ax with
  | ⟨0, _⟩ => exact Fin.ext ((rhs_row wf _ _).trans (contrEquiv1_symm_val (plainDims wf) K rfl rfl k))
  | ⟨1, _⟩ => exact Fin.ext (rhs_col wf _ _)

/-- The sum over the contraction index of the operands' products is the sum over `Fin K` of row `a` of the left
    operand against column `b` of the right operand. -/
theorem sum_contr (l : (⟨2, ![M, K]⟩ : Shape).Idx → EReal) (r : (⟨2, ![K, N]⟩ : Shape).Idx → EReal)
    (a : Fin M) (b : Fin N) :
    ∑ q : (plainDims wf).contr.Idx, l ((plainDims wf).lhsIdx (ix2 a b) q) * r ((plainDims wf).rhsIdx (ix2 a b) q)
      = ∑ k : Fin K, l (ix2 a k) * r (ix2 k b) := by
  rw [← Equiv.sum_comp (contrFin wf).symm]
  refine Finset.sum_congr rfl fun k _ => ?_
  rw [lhsIdx_eq, rhsIdx_eq]

end Axes

section Products
variable {M K N : Nat} {φ₁ φ₂ : FTy} (d : DotDims ⟨2, ![M, K]⟩ ⟨2, ![K, N]⟩ ⟨2, ![M, N]⟩)

/-- THE HOST'S PLAIN PRODUCT READ AT `(a, b)`: at the extended reals `dot_general` with these dimension numbers is row
    `a` of the left operand against column `b` of the right operand, whatever the precision and schedule keys. -/
theorem dotGeneral_plain (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) := by
  obtain ⟨lc, rc, ln, rn, lb, rb, wf⟩ := d
  simp only at hlc hrc hln hrn hlb hrb
  subst hlc hrc hln hrn hlb hrb
  rw [Ideal.dotGeneral_apply]
  exact sum_contr wf l r a b

/-- THE KERNEL'S PLAIN PRODUCT INTO A ZERO ACCUMULATOR READ AT `(a, b)`: the same sum. -/
theorem matmul_zero_plain (hlc : d.lhsContracting = [1]) (hrc : d.rhsContracting = [0])
    (hln : d.lhsNonContracting = [0]) (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b)
      = ∑ k : Fin K, l (ix2 a k) * r (ix2 k b) := by
  obtain ⟨lc, rc, ln, rn, lb, rb, wf⟩ := d
  simp only at hlc hrc hln hrn hlb hrb
  subst hlc hrc hln hrn hlb hrb
  rw [Ideal.matmul_constant_zero_apply]
  exact sum_contr wf l r a b

end Products

end Cert.LibPlainDot

end
-- ==== Proof.RowsProduct.lean ====
/-
  Gathering rows commutes with multiplying on the right by a fixed matrix.

  For a matrix `x` of `N` rows and a matrix `W`, write `rowsTimes x W` for the product read index by index: entry
  `(n, c)` is row `n` of `x` against column `c` of `W`. A row gather picks, for each position `e`, the row whose
  number is entry `e` of a column of row numbers (read signed, clamped into `[0, N - 1]`). Picking rows of the product
  or multiplying the picked rows gives the same matrix: entry `(e, c)` is in both cases the picked row of `x` against
  column `c` of `W`, because the product's row `n` depends on `x` through its row `n` alone. No property of the
  extended reals' arithmetic is used: the two sides are the same sum, term by term.
-/
import proofs.«422671_j86955907875600_3_alg».proof.Proof.LibRows
import proofs.«422671_j86955907875600_3_alg».proof.Proof.LibPlainDot

noncomputable section

open scoped BigOperators

namespace Cert.RowsProduct

open Idealize.ShloMosaic Idealize.ShloMosaic.ValueIdx

variable {N K C : Nat}

/-- The product of an `[N, K]` matrix by a `[K, C]` matrix over the extended reals, index by index. -/
def rowsTimes (x : FVec Ideal ⟨2, ![N, K]⟩ .f32) (W : FVec Ideal ⟨2, ![K, C]⟩ .f32) : FVec Ideal ⟨2, ![N, C]⟩ .f32 :=
  fun i => ∑ k : Fin K, x (ix2 (i 0) k) * W (ix2 k (i 1))

/-- Entry `(n, c)` of the product is row `n` against column `c`. -/
theorem rowsTimes_apply (x : FVec Ideal ⟨2, ![N, K]⟩ .f32) (W : FVec Ideal ⟨2, ![K, C]⟩ .f32) (n : Fin N) (c : Fin C) :
    rowsTimes x W (ix2 n c) = ∑ k : Fin K, x (ix2 n k) * W (ix2 k c) := rfl

/-- ROWS OF THE PRODUCT ARE THE PRODUCT OF THE ROWS: the row gather of `rowsTimes x W` along a column of row numbers is
    the host's plain product of the row gather of `x` along the same column with `W`. The two gathers' dimension numbers
    (`g` over rows of length `C`, `g'` over rows of length `K`) both collapse the operand's axis 0 and index it. -/
theorem gather_rowsTimes {E w : Nat} {φ₂ : FTy} (hN : 0 < N)
    (g : GatherDims ⟨2, ![N, C]⟩ ⟨2, ![E, 1]⟩ ⟨2, ![E, C]⟩)
    (hoff : g.offsetDims = [1]) (hcoll : g.collapsedSliceDims = [0]) (hob : g.operandBatchingDims = [])
    (hsim : g.startIndexMap = [0]) (hivd : g.indexVectorDim = 1)
    (g' : GatherDims ⟨2, ![N, K]⟩ ⟨2, ![E, 1]⟩ ⟨2, ![E, K]⟩)
    (hoff' : g'.offsetDims = [1]) (hcoll' : g'.collapsedSliceDims = [0]) (hob' : g'.operandBatchingDims = [])
    (hsim' : g'.startIndexMap = [0]) (hivd' : g'.indexVectorDim = 1)
    (D : DotDims ⟨2, ![E, K]⟩ ⟨2, ![K, C]⟩ ⟨2, ![E, C]⟩)
    (hlc : D.lhsContracting = [1]) (hrc : D.rhsContracting = [0])
    (hln : D.lhsNonContracting = [0]) (hrn : D.rhsNonContracting = [1]) (hlb : D.lhsBatch = []) (hrb : D.rhsBatch = [])
    (prec : Option ContractPrecision) (sched : HostSchedule)
    (x : FVec Ideal ⟨2, ![N, K]⟩ .f32) (W : FVec Ideal ⟨2, ![K, C]⟩ φ₂) (W' : FVec Ideal ⟨2, ![K, C]⟩ .f32)
    (hW : ∀ i, W i = W' i) (idx : IVec ⟨2, ![E, 1]⟩ w) :
    Host.gather g (rowsTimes x W') idx
      = FloatOps.dotGeneral D prec sched (Host.gather g' x idx : FVec Ideal ⟨2, ![E, K]⟩ .f32) W := by
  funext j
  obtain ⟨e, c, rfl⟩ : ∃ (e : Fin E) (c : Fin C), j = ix2 e c := ⟨j 0, j 1, eq_ix2 j⟩
  rw [Cert.LibRows.gather_rows2 hN g hoff hcoll hob hsim hivd, rowsTimes_apply,
    Cert.LibPlainDot.dotGeneral_plain D hlc hrc hln hrn hlb hrb]
  refine Finset.sum_congr rfl fun k _ => ?_
  rw [Cert.LibRows.gather_rows2 hN g' hoff' hcoll' hob' hsim' hivd', hW]

end Cert.RowsProduct

end
-- ==== Proof.KernelBlock.lean ====
/-
  The region's output array: the embedding table times `W`, row by row.

  The region walks the `[150000, 64]` table of node embeddings in ten blocks of 15000 rows. At grid point `t` the body
  loads block `t` of the table and the whole `[64, 64]` matrix `W`, changes both to a narrower float format (the
  identity on the extended reals), multiplies them on the matrix unit into a zero accumulator, and stores the
  `[15000, 64]` product as block `t` of the output. Entry `(p, q)` of that product is row `p` of the loaded block against
  column `q` of `W`; row `p` of block `t` is row `15000 t + p` of the table. So what point `t` writes back is block `t` of
  ONE function of the table and `W`, their product `rowsTimes` read index by index, and since the ten blocks tile the
  150000 rows the output array ends holding exactly that product.
-/
import proofs.«422671_j86955907875600_3_alg».proof.Proof.Gen.KernelIdeal.Frame
import proofs.«422671_j86955907875600_3_alg».proof.Proof.RowsProduct
import Idealize.ShloMosaic.Lib.Pipeline.Value
import Idealize.ShloMosaic.Lib.ValueIdx

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowsProduct

variable (m : (ℓ : Loc nD τ sig) → Buf (Elt Ideal) ℓ)

/-- The table of node embeddings as the region finds it: users' rows, then entities' rows. -/
abbrev table (c : Dev nD) : FVec Ideal S150000x64 .f32 := V m c main_v14
/-- The matrix `W` as the region finds it. -/
abbrev weight (c : Dev nD) : FVec Ideal S64x64 .f32 := V m c main_arg7

/-! ## The body's arithmetic at an index -/

/-- Entry `(p, q)` of what the body stores is row `p` of the loaded block against column `q` of the loaded matrix: the
    two changes of float format are the identity on the extended reals and the matrix unit adds the products to zero. -/
theorem pay_apply (x0 : Vec Ideal S15000x64 .f32) (x1 : Vec Ideal S64x64 .f32) (p : Fin 15000) (q : Fin 64) :
    k0_pay1 (F := Ideal) x0 x1 (ix2 p q) = ∑ k : Fin 64, x0 (ix2 p k) * x1 (ix2 k q) := by
  unfold k0_pay1
  refine (Cert.LibPlainDot.matmul_zero_plain dot_S15000x64_S64x64_S15000x64_1_0_0_1_n_n rfl rfl rfl rfl rfl rfl none _ _ p q).trans ?_
  refine Finset.sum_congr rfl fun k _ => ?_
  rw [truncf_apply, truncf_apply, shapeCast_self]

/-! ## The index maps over the grid -/

theorem hz : (![0, 0] : Fin 2 → Nat) = fun _ => 0 := funext fun a => by fin_cases a <;> rfl

/-- The printed index maps, decided over the ten grid points: the table's block moves with the output's block along
    the rows, `W`'s block stays put, nothing moves along the columns, and the output's block number is below 10. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- Row `p` of point `t`'s block is a row of the table. -/
theorem row_lt (t : Fin cfg0.N) (p : Fin 15000) : win0_2.index t (0 : Fin 2) * 15000 + p.val < 150000 := by
  have h := (idx_facts t).2.2.2.2.2
  have hp := p.isLt
  omega

/-! ## The loaded blocks, read where the output's block says -/

/-- The table's block at point `t`, at `(p, k)`, is the table at row `15000 t + p`, column `k`. -/
theorem table_block (c : Dev nD) (t : Fin cfg0.N) (p : Fin 15000) (k : Fin 64) :
    (iblk m c 0 t : Vec Ideal S15000x64 .f32) (ix2 p k)
      = table m c (ix2 ⟨win0_2.index t (0 : Fin 2) * 15000 + p.val, row_lt t p⟩ k) := by
  obtain ⟨e0, e1, e2, e3, e4, e5⟩ := idx_facts t
  show V m c main_v14 (((cfg0.win 0).blk t).view.emb (ix2 p k)) = V m c main_v14 _
  refine congrArg (V m c main_v14) ?_
  funext a
  apply Fin.ext
  match a with
  | ⟨0, _⟩ =>
    show win0_0.index t (0 : Fin 2) * 15000 + 1 * p.val = win0_2.index t (0 : Fin 2) * 15000 + p.val
    omega
  | ⟨1, _⟩ =>
    show win0_0.index t (1 : Fin 2) * 64 + 1 * k.val = k.val
    omega

/-- `W`'s block at any point is `W`. -/
theorem weight_block (c : Dev nD) (t : Fin cfg0.N) (k : Fin 64) (q : Fin 64) :
    (iblk m c 1 t : Vec Ideal S64x64 .f32) (ix2 k q) = weight m c (ix2 k q) := by
  obtain ⟨e0, e1, e2, e3, e4, e5⟩ := idx_facts t
  show V m c main_arg7 (((cfg0.win 1).blk t).view.emb (ix2 k q)) = V m c main_arg7 _
  refine congrArg (V m c main_arg7) ?_
  funext a
  apply Fin.ext
  match a with
  | ⟨0, _⟩ =>
    show win0_1.index t (0 : Fin 2) * 64 + 1 * k.val = k.val
    omega
  | ⟨1, _⟩ =>
    show win0_1.index t (1 : Fin 2) * 64 + 1 * q.val = q.val
    omega

/-! ## What a point writes back, the cover, the array -/

/-- WHAT POINT `t` WRITES BACK is block `t` of the product of the table by `W`. -/
theorem flushed_eq (c : Dev nD) (t : Fin cfg0.N) :
    (dats m 0 c).flushed 2 t = ((cfg0.win 2).blk t).view.read (Elt Ideal) (rowsTimes (table m c) (weight m c)) := by
  show (cfg0.win 2).cut (grid0.coords t) ((dats m 0 c).after 2 t) = _
  rw [after0_2]
  unfold out0_2
  rw [View.canon_unit_zero hz]
  simp only [View.ld_unit_zero (S := S15000x64) hz, View.ld_unit_zero (S := S64x64) hz]
  obtain ⟨e0, e1, e2, e3, e4, e5⟩ := idx_facts t
  funext j
  obtain ⟨p, q, rfl⟩ : ∃ (p : Fin 15000) (q : Fin 64), j = ix2 p q := ⟨j 0, j 1, eq_ix2 j⟩
  show k0_pay1 (F := Ideal) (iblk m c 0 t) (iblk m c 1 t) (ix2 p q)
    = rowsTimes (table m c) (weight m c) (((cfg0.win 2).blk t).view.emb (ix2 p q))
  have hemb : ((cfg0.win 2).blk t).view.emb (ix2 p q)
      = (ix2 ⟨win0_2.index t (0 : Fin 2) * 15000 + p.val, row_lt t p⟩ q : S150000x64.Idx) := by
    funext a
    apply Fin.ext
    match a with
    | ⟨0, _⟩ =>
      show win0_2.index t (0 : Fin 2) * 15000 + 1 * p.val = win0_2.index t (0 : Fin 2) * 15000 + p.val
      omega
    | ⟨1, _⟩ =>
      show win0_2.index t (1 : Fin 2) * 64 + 1 * q.val = q.val
      omega
  rw [hemb, rowsTimes_apply, pay_apply]
  refine Finset.sum_congr rfl fun k _ => ?_
  rw [table_block, weight_block]

/-- An index of the output array is in point `t`'s block iff each coordinate is in the block's range on its axis. -/
theorem mem_blk (t : Fin cfg0.N) (i : S150000x64.Idx) :
    i ∈ ((cfg0.win 2).blk t).view.set ↔ ∀ a : Fin 2, win0_2.index t a * S15000x64.size a ≤ (i a).val ∧ (i a).val < win0_2.index t a * S15000x64.size a + S15000x64.size a := by
  show i ∈ ((View.whole main_v15).slice (win0_2.rect t)).set ↔ _
  rw [View.set_slice_whole, Rect.mem_set_unit]
  exact Iff.rfl

/-- The ten blocks tile the 150000 rows: row `r` lies in the block of the point whose block number is `r / 15000`. -/
theorem cover (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := idx_onto ⟨(i 0).val / 15000, by omega⟩
  have q0 : win0_2.index t (0 : Fin 2) = (i 0).val / 15000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 15000 ≤ (i 0).val ∧ (i 0).val < win0_2.index t (0 : Fin 2) * 15000 + 15000
    omega
  | ⟨1, _⟩ =>
    show win0_2.index t (1 : Fin 2) * 64 ≤ (i 1).val ∧ (i 1).val < win0_2.index t (1 : Fin 2) * 64 + 64
    omega

/-- THE OUTPUT ARRAY after the region: the product of the table by `W`. -/
theorem final (c : Dev nD) : (dats m 0 c).arrAt 2 cfg0.N = rowsTimes (table m c) (weight m c) :=
  (dats m 0 c).arrAt_eq_of_cover 2 (rowsTimes (table m c) (weight m c)) (fun t _ => flushed_eq m c t) cover

end Cert.KernelIdeal.Block

end
-- ==== Proof.Layer.lean ====
/-
  The attention layer both programs compute, as functions of arrays.

  Nodes are 50000 users followed by 100000 entities, each with a 64-long embedding row; there are 1500000 edges, each a
  pair (source node, destination node).

  * `table`: the node embeddings. Row `u` of the users' part is the users' table at the row number `user_indices[u]`,
    row `e` of the entities' part the entities' table at `item_indices[e]`; a negative row number counts from the
    end of its table (`usersColumn`, `itemsColumn`: jnp's indexing), and the gather clamps what is still out of range.
  * `sources`, `destinations`: the two rows of the edge list; `edgeColumn` turns a row of node numbers into the column
    of row numbers a gather takes, negative numbers again counting from the end of the 150000 nodes.
  * `aggregate xj xi dst`: what the layer does with the transformed source rows `xj` and destination rows `xi`, one row
    per edge. The logit of an edge is the inner product of its two rows, passed through `leaky_relu` with slope 0.2;
    the scores are the softmax of the logits over ALL edges (subtract the maximum, exponentiate, divide by the sum);
    each edge's message is its score times its source row, and the messages are summed into the rows of their
    destination nodes (an edge whose destination number is outside the nodes is dropped); last, `relu`.
  * `usersOut`, `entitiesOut`: the first 50000 and the last 100000 rows of the aggregate, the two results.

  The definitions are generic in the float instance and are spelt operation by operation as both programs print
  them, so that each program's run reads its results off as these functions by unfolding alone.
-/
import Idealize.ShloMosaic.PureOps.Ideal
import Idealize.ShloMosaic.PureOps.ShapeOps
import Idealize.ShloMosaic.PureOps.Contract

noncomputable section

namespace Cert.Layer

open Idealize.ShloMosaic Idealize.ShloMosaic.TcCoe

variable {F : FTy → Type} [FloatOps F]

/-! ## Shapes -/

abbrev Scalar : Shape := ⟨0, ![]⟩
abbrev One : Shape := ⟨1, ![1]⟩
abbrev OneOne : Shape := ⟨2, ![1, 1]⟩
abbrev Users : Shape := ⟨1, ![50000]⟩
abbrev UsersCol : Shape := ⟨2, ![50000, 1]⟩
abbrev UsersRows : Shape := ⟨2, ![50000, 64]⟩
abbrev Items : Shape := ⟨1, ![100000]⟩
abbrev ItemsCol : Shape := ⟨2, ![100000, 1]⟩
abbrev ItemsRows : Shape := ⟨2, ![100000, 64]⟩
abbrev NodeRows : Shape := ⟨2, ![150000, 64]⟩
abbrev EdgeList : Shape := ⟨2, ![2, 1500000]⟩
abbrev EdgeRow : Shape := ⟨2, ![1, 1500000]⟩
abbrev Edges : Shape := ⟨1, ![1500000]⟩
abbrev EdgesCol : Shape := ⟨2, ![1500000, 1]⟩
abbrev EdgeRows : Shape := ⟨2, ![1500000, 64]⟩
abbrev Square : Shape := ⟨2, ![64, 64]⟩

/-! ## The shape relations the operations ask for -/

theorem scalar_pos : 0 < Scalar.numel := by decide
theorem bcast_users : Scalar.BroadcastsInDim Users (![] : Fin 0 → Fin Users.rank) := by decide
theorem bcast_usersCol : Users.BroadcastsInDim UsersCol (![0] : Fin 1 → Fin UsersCol.rank) := by decide
theorem bcast_items : Scalar.BroadcastsInDim Items (![] : Fin 0 → Fin Items.rank) := by decide
theorem bcast_itemsCol : Items.BroadcastsInDim ItemsCol (![0] : Fin 1 → Fin ItemsCol.rank) := by decide
theorem concat_nodes : Shape.Concatenates [UsersRows, ItemsRows] NodeRows 0 := by decide
theorem slice_sources : EdgeList.Slices ![0, 0] EdgeRow := by decide
theorem slice_destinations : EdgeList.Slices ![1, 0] EdgeRow := by decide
theorem flatten_edgeRow : EdgeRow.ShapeCasts Edges := by decide
theorem bcast_edges : Scalar.BroadcastsInDim Edges (![] : Fin 0 → Fin Edges.rank) := by decide
theorem bcast_edgesCol : Edges.BroadcastsInDim EdgesCol (![0] : Fin 1 → Fin EdgesCol.rank) := by decide
theorem reduce_rows : EdgeRows.ReducesTo [1] Edges := by decide
theorem bcast_scalar_edgesCol : Scalar.BroadcastsInDim EdgesCol (![] : Fin 0 → Fin EdgesCol.rank) := by decide
theorem reduce_edges : EdgesCol.ReducesTo [0] One := by decide
theorem bcast_one : Scalar.BroadcastsInDim One (![] : Fin 0 → Fin One.rank) := by decide
theorem bcast_oneOne : One.BroadcastsInDim OneOne (![1] : Fin 1 → Fin OneOne.rank) := by decide
theorem bcast_oneOne_edgesCol : OneOne.BroadcastsInDim EdgesCol (![0, 1] : Fin 2 → Fin EdgesCol.rank) := by decide
theorem bcast_edgesCol_rows : EdgesCol.BroadcastsInDim EdgeRows (![0, 1] : Fin 2 → Fin EdgeRows.rank) := by decide
theorem bcast_nodeRows : Scalar.BroadcastsInDim NodeRows (![] : Fin 0 → Fin NodeRows.rank) := by decide
theorem slice_users : NodeRows.Slices ![0, 0] UsersRows := by decide
theorem slice_entities : NodeRows.Slices ![50000, 0] ItemsRows := by decide

/-- A row gather from the users' table: axis 0 collapsed and indexed, axis 1 an offset axis. -/
def gatherUsers : GatherDims UsersRows UsersCol UsersRows := ⟨[1], [0], [], [], [0], 1, ![1, 64], by decide⟩
/-- A row gather from the entities' table. -/
def gatherItems : GatherDims ItemsRows ItemsCol ItemsRows := ⟨[1], [0], [], [], [0], 1, ![1, 64], by decide⟩
/-- A row gather from a node array, one row per edge. -/
def gatherEdges : GatherDims NodeRows EdgesCol EdgeRows := ⟨[1], [0], [], [], [0], 1, ![1, 64], by decide⟩
/-- The plain product of the edges' rows by a `[64, 64]` matrix. -/
def dotEdges : DotDims EdgeRows Square EdgeRows := ⟨[1], [0], [0], [1], [], [], by decide⟩
/-- A row scatter into a node array, one update row per edge. -/
def scatterEdges : ScatterDims NodeRows EdgesCol EdgeRows := ⟨[1], [0], [0], 1, by decide⟩

/-! ## The node embeddings -/

/-- The users' row numbers as a column, a negative one counting from the end of the 50000 rows. -/
def usersColumn (a : IVec Users 32) : IVec UsersCol 32 :=
  broadcastInDim UsersCol ![0] bcast_usersCol
    (select (cmpi .slt a (broadcastInDim Users ![] bcast_users (constantI Scalar 32 0#32)))
      (addi a (broadcastInDim Users ![] bcast_users (constantI Scalar 32 50000#32))) a)

/-- The entities' row numbers as a column, a negative one counting from the end of the 100000 rows. -/
def itemsColumn (a : IVec Items 32) : IVec ItemsCol 32 :=
  broadcastInDim ItemsCol ![0] bcast_itemsCol
    (select (cmpi .slt a (broadcastInDim Items ![] bcast_items (constantI Scalar 32 0#32)))
      (addi a (broadcastInDim Items ![] bcast_items (constantI Scalar 32 100000#32))) a)

/-- The node embeddings: the users' gathered rows, then the entities'. -/
def table (users : IVec Users 32) (items : IVec Items 32) (userTable : FVec F UsersRows .f32)
    (entityTable : FVec F ItemsRows .f32) : FVec F NodeRows .f32 :=
  concatenate NodeRows 0
    [⟨UsersRows, Host.gather gatherUsers userTable (usersColumn users)⟩,
     ⟨ItemsRows, Host.gather gatherItems entityTable (itemsColumn items)⟩] concat_nodes

/-! ## The edges -/

/-- The edges' source nodes: row 0 of the edge list. -/
def sources (edges : IVec EdgeList 32) : IVec Edges 32 :=
  shapeCast Edges (extractStridedSlice EdgeRow ![0, 0] edges slice_sources) flatten_edgeRow

/-- The edges' destination nodes: row 1 of the edge list. -/
def destinations (edges : IVec EdgeList 32) : IVec Edges 32 :=
  shapeCast Edges (extractStridedSlice EdgeRow ![1, 0] edges slice_destinations) flatten_edgeRow

/-- A row of node numbers as the column of row numbers a gather takes, a negative one counting from the end of the
    150000 nodes. -/
def edgeColumn (v : IVec Edges 32) : IVec EdgesCol 32 :=
  broadcastInDim EdgesCol ![0] bcast_edgesCol
    (select (cmpi .slt v (broadcastInDim Edges ![] bcast_edges (constantI Scalar 32 0#32)))
      (addi v (broadcastInDim Edges ![] bcast_edges (constantI Scalar 32 150000#32))) v)

/-! ## From the edges' transformed rows to the results -/

/-- An edge's logit: the inner product of its destination row and its source row, as a column. -/
def logits (xi xj : FVec F EdgeRows .f32) : FVec F EdgesCol .f32 :=
  broadcastInDim EdgesCol ![0] bcast_edgesCol
    (Host.reduceAdd (mulf xi xj) (constant Scalar .f32 0x00000000#32) reduce_rows scalar_pos)

/-- `leaky_relu` with slope 0.2: the value where it is at least zero, 0.2 times it elsewhere. -/
def leaky (x : FVec F EdgesCol .f32) : FVec F EdgesCol .f32 :=
  select (cmpf .oge x (broadcastInDim EdgesCol ![] bcast_scalar_edgesCol (constant Scalar .f32 0x00000000#32))) x
    (mulf (broadcastInDim EdgesCol ![] bcast_scalar_edgesCol (constant Scalar .f32 0x3E4CCCCD#32)) x)

/-- The exponentials of the logits less their maximum over all edges. -/
def shiftedExp (x : FVec F EdgesCol .f32) : FVec F EdgesCol .f32 :=
  Host.exp (subf x
    (broadcastInDim EdgesCol ![0, 1] bcast_oneOne_edgesCol
      (broadcastInDim OneOne ![1] bcast_oneOne
        (maximumf (broadcastInDim One ![] bcast_one (constant Scalar .f32 0xFF800000#32))
          (Host.reduce FloatOps.maximumf x (constant Scalar .f32 0xFF800000#32) reduce_edges scalar_pos)))))

/-- The softmax over all edges: each exponential over their sum. -/
def softmax (x : FVec F EdgesCol .f32) : FVec F EdgesCol .f32 :=
  Host.divf (shiftedExp x)
    (broadcastInDim EdgesCol ![0, 1] bcast_oneOne_edgesCol
      (broadcastInDim OneOne ![1] bcast_oneOne
        (Host.reduceAdd (shiftedExp x) (constant Scalar .f32 0x00000000#32) reduce_edges scalar_pos)))

/-- The messages summed into their destination nodes, then `relu`. -/
def aggregate (xj xi : FVec F EdgeRows .f32) (dst : IVec Edges 32) : FVec F NodeRows .f32 :=
  maximumf
    (Host.scatterAdd scatterEdges (broadcastInDim NodeRows ![] bcast_nodeRows (constant Scalar .f32 0x00000000#32))
      (broadcastInDim EdgesCol ![0] bcast_edgesCol dst)
      (mulf (broadcastInDim EdgeRows ![0, 1] bcast_edgesCol_rows (softmax (leaky (logits xi xj)))) xj))
    (broadcastInDim NodeRows ![] bcast_nodeRows (constant Scalar .f32 0x00000000#32))

/-- The users' rows of a node array. -/
def usersOut (y : FVec F NodeRows .f32) : FVec F UsersRows .f32 := extractStridedSlice UsersRows ![0, 0] y slice_users
/-- The entities' rows of a node array. -/
def entitiesOut (y : FVec F NodeRows .f32) : FVec F ItemsRows .f32 := extractStridedSlice ItemsRows ![50000, 0] y slice_entities

end Cert.Layer

end
-- ==== Proof.KernelRun.lean ====
/-
  The idealized kernel program's run, read as the layer's functions.

  Before the region the host builds the node embeddings `Layer.table` of the four arguments it reads; the region leaves
  the product of that table by `W` in its output array (`Block.final`); after it the host takes the two rows of the
  edge list, gathers the PRODUCT's rows at the sources and at the destinations, and runs the rest of the layer
  (`Layer.aggregate`) on those rows, returning the users' and the entities' rows of the result. No operation and no
  write-back touches an argument.
-/
import proofs.«422671_j86955907875600_3_alg».proof.Proof.KernelBlock
import proofs.«422671_j86955907875600_3_alg».proof.Proof.Layer
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.RowsProduct

variable (m : (ℓ : Loc nD τ sig) → Buf (Elt Ideal) ℓ) (ρ : Dev nD → PrngReg)

/-- The node embeddings of the launch contents. -/
abbrev launchTable (c : Dev nD) : FVec Ideal Layer.NodeRows .f32 :=
  Layer.table (F := Ideal) (m ((c : Thread nD τ).loc main_arg0)) (m ((c : Thread nD τ).loc main_arg1))
    (m ((c : Thread nD τ).loc main_arg5)) (m ((c : Thread nD τ).loc main_arg6))

set_option maxHeartbeats 4000000 in
/-- The table the region finds is the node embeddings of the launch contents. -/
theorem table_eq (c : Dev nD) : Block.table m c = launchTable m c := by
  show StableHlo.after hostOps0 (fun b => m (c, b)) (Proc.devRef .tc main_v14) = _
  after_results <;> rfl

/-- The matrix the region finds is `W` as launched. -/
theorem weight_eq (c : Dev nD) : Block.weight m c = m ((c : Thread nD τ).loc main_arg7) := V_main_arg7 m c

/-- The layer's result from a node array `y` standing where the region's output is, and an edge list. -/
abbrev layerOf (y : FVec Ideal Layer.NodeRows .f32) (edges : IVec Layer.EdgeList 32) : FVec Ideal Layer.NodeRows .f32 :=
  Layer.aggregate (F := Ideal)
    (Host.gather Layer.gatherEdges y (Layer.edgeColumn (Layer.sources edges)))
    (Host.gather Layer.gatherEdges y (Layer.edgeColumn (Layer.destinations edges)))
    (Layer.destinations edges)

/-! ## The lines after the region, stretch by stretch, from any contents `W` of the buffers -/

set_option maxHeartbeats 4000000 in
/-- The first stretch gathers the output array's rows at the edges' sources … -/
theorem source_rows (W : Valuation τ sig (Elt Ideal)) :
    after hostOps1 W (Proc.devRef .tc main_v26)
      = Host.gather Layer.gatherEdges (W (Proc.devRef .tc main_v15)) (Layer.edgeColumn (Layer.sources (W (Proc.devRef .tc main_arg2)))) := by
  after_results_simp <;> rfl

set_option maxHeartbeats 4000000 in
/-- … and at their destinations, … -/
theorem destination_rows (W : Valuation τ sig (Elt Ideal)) :
    after hostOps1 W (Proc.devRef .tc main_v33)
      = Host.gather Layer.gatherEdges (W (Proc.devRef .tc main_v15)) (Layer.edgeColumn (Layer.destinations (W (Proc.devRef .tc main_arg2)))) := by
  after_results_simp <;> rfl

set_option maxHeartbeats 4000000 in
/-- … keeps the destinations, … -/
theorem destinations_eq (W : Valuation τ sig (Elt Ideal)) :
    after hostOps1 W (Proc.devRef .tc main_v19) = Layer.destinations (W (Proc.devRef .tc main_arg2)) := by
  after_results_simp <;> rfl

set_option maxHeartbeats 4000000 in
/-- … and forms the logits of the two gathered matrices. -/
theorem logits_eq (W : Valuation τ sig (Elt Ideal)) :
    after hostOps1 W (Proc.devRef .tc main_v36)
      = Layer.logits (F := Ideal)
          (Host.gather Layer.gatherEdges (W (Proc.devRef .tc main_v15)) (Layer.edgeColumn (Layer.destinations (W (Proc.devRef .tc main_arg2)))))
          (Host.gather Layer.gatherEdges (W (Proc.devRef .tc main_v15)) (Layer.edgeColumn (Layer.sources (W (Proc.devRef .tc main_arg2))))) := by
  after_results_simp <;> rfl

set_option maxHeartbeats 4000000 in
/-- The second stretch is `leaky_relu`; it reads the slope the first stretch wrote. -/
theorem leaky_eq (W : Valuation τ sig (Elt Ideal))
    (hslope : W (Proc.devRef .tc main_cst_7) = (constant Layer.Scalar .f32 0x3E4CCCCD#32 : FVec Ideal Layer.Scalar .f32)) :
    after hostOps1_1 W (Proc.devRef .tc main_v37) = Layer.leaky (F := Ideal) (W (Proc.devRef .tc main_v36)) := by
  after_results_simp
  rw [hslope]
  rfl

set_option maxHeartbeats 4000000 in
theorem slope_eq (W : Valuation τ sig (Elt Ideal)) :
    after hostOps1 W (Proc.devRef .tc main_cst_7) = (constant Layer.Scalar .f32 0x3E4CCCCD#32 : FVec Ideal Layer.Scalar .f32) := by
  after_results_simp <;> rfl

set_option maxHeartbeats 4000000 in
theorem leaky_keeps (W : Valuation τ sig (Elt Ideal)) (b : Ref sig .tc)
    (hb : b = main_v26 ∨ b = main_v19) :
    after hostOps1_1 W (Proc.devRef .tc b) = W (Proc.devRef .tc b) := by
  rcases hb with rfl | rfl <;> after_results_simp

set_option maxHeartbeats 4000000 in
/-- The third stretch: the softmax, the messages and their sum into the destination nodes. -/
theorem summed_eq (W : Valuation τ sig (Elt Ideal)) :
    after hostOps1_2 W (Proc.devRef .tc main_v53)
      = (Host.scatterAdd Layer.scatterEdges
          (broadcastInDim Layer.NodeRows ![] Layer.bcast_nodeRows (constant (F := Ideal) Layer.Scalar .f32 0x00000000#32))
          (broadcastInDim Layer.EdgesCol ![0] Layer.bcast_edgesCol (W (Proc.devRef .tc main_v19)))
          (mulf (broadcastInDim Layer.EdgeRows ![0, 1] Layer.bcast_edgesCol_rows (Layer.softmax (F := Ideal) (W (Proc.devRef .tc main_v37))))
            (W (Proc.devRef .tc main_v26))) : FVec Ideal Layer.NodeRows .f32) := by
  after_results_simp <;> rfl

set_option maxHeartbeats 4000000 in
/-- The fourth stretch is `relu`. -/
theorem relu_eq (W : Valuation τ sig (Elt Ideal)) :
    after hostOps1_3 W (Proc.devRef .tc main_v54)
      = (maximumf (W (Proc.devRef .tc main_v53))
          (broadcastInDim Layer.NodeRows ![] Layer.bcast_nodeRows (constant (F := Ideal) Layer.Scalar .f32 0x00000000#32)) : FVec Ideal Layer.NodeRows .f32) := by
  after_results_simp <;> rfl

/-- The last stretch cuts the users' rows and the entities' rows. -/
theorem cut_users (W : Valuation τ sig (Elt Ideal)) :
    after hostOps1_4 W (Proc.devRef .tc main_v55) = Layer.usersOut (F := Ideal) (W (Proc.devRef .tc main_v54)) := by
  after_results_simp <;> rfl

theorem cut_entities (W : Valuation τ sig (Elt Ideal)) :
    after hostOps1_4 W (Proc.devRef .tc main_v56) = Layer.entitiesOut (F := Ideal) (W (Proc.devRef .tc main_v54)) := by
  after_results_simp <;> rfl

/-- The five stretches run one after the other. -/
theorem after_tail (W : Valuation τ sig (Elt Ideal)) :
    after (List.flatten [hostOps1, hostOps1_1, hostOps1_2, hostOps1_3, hostOps1_4]) W
      = after hostOps1_4 (after hostOps1_3 (after hostOps1_2 (after hostOps1_1 (after hostOps1 W)))) := by
  show after (hostOps1 ++ (hostOps1_1 ++ (hostOps1_2 ++ (hostOps1_3 ++ (hostOps1_4 ++ []))))) W = _
  rw [List.append_nil, after_append, after_append, after_append, after_append]

/-- The layer's result before the cuts, from the five stretches. -/
theorem layer_eq (W : Valuation τ sig (Elt Ideal)) :
    after hostOps1_3 (after hostOps1_2 (after hostOps1_1 (after hostOps1 W))) (Proc.devRef .tc main_v54)
      = layerOf (W (Proc.devRef .tc main_v15)) (W (Proc.devRef .tc main_arg2)) := by
  rw [relu_eq, summed_eq, leaky_eq _ (slope_eq W), leaky_keeps _ main_v26 (Or.inl rfl), leaky_keeps _ main_v19 (Or.inr rfl),
    logits_eq, source_rows, destinations_eq]
  rfl

theorem tail_users (W : Valuation τ sig (Elt Ideal)) :
    after (List.flatten [hostOps1, hostOps1_1, hostOps1_2, hostOps1_3, hostOps1_4]) W (Proc.devRef .tc main_v55)
      = Layer.usersOut (layerOf (W (Proc.devRef .tc main_v15)) (W (Proc.devRef .tc main_arg2))) := by
  rw [after_tail, cut_users, layer_eq]

theorem tail_entities (W : Valuation τ sig (Elt Ideal)) :
    after (List.flatten [hostOps1, hostOps1_1, hostOps1_2, hostOps1_3, hostOps1_4]) W (Proc.devRef .tc main_v56)
      = Layer.entitiesOut (layerOf (W (Proc.devRef .tc main_v15)) (W (Proc.devRef .tc main_arg2))) := by
  rw [after_tail, cut_entities, layer_eq]

/-- What the region leaves: its output array at the product, the edge list as launched. -/
theorem left_output (c : Dev nD) :
    Pipeline.withArrays spec0 c (V0 m c) (fun w => (dats m 0 c).arrAt w cfg0.N) (Proc.devRef .tc main_v15)
      = rowsTimes (launchTable m c) (m ((c : Thread nD τ).loc main_arg7)) :=
  (Pipeline.withArrays_arr spec0 launch0.win.arr_inj c _ _ 2).trans
    ((Block.final m c).trans (by rw [table_eq, weight_eq]))

theorem left_edges (c : Dev nD) :
    Pipeline.withArrays spec0 c (V0 m c) (fun w => (dats m 0 c).arrAt w cfg0.N) (Proc.devRef .tc main_arg2)
      = m ((c : Thread nD τ).loc main_arg2) :=
  (Pipeline.withArrays_of_ne spec0 c (V0 m c) _ main_arg2 (by exact (by decide : ∀ w, Pipeline.arrRef spec0 w ≠ main_arg2))).trans
    (V_main_arg2 m c)

/-- The users' rows the kernel program returns. -/
abbrev usersResult (c : Dev nD) : FVec Ideal Layer.UsersRows .f32 :=
  Layer.usersOut (layerOf (rowsTimes (launchTable m c) (m ((c : Thread nD τ).loc main_arg7))) (m ((c : Thread nD τ).loc main_arg2)))
/-- The entities' rows the kernel program returns. -/
abbrev entitiesResult (c : Dev nD) : FVec Ideal Layer.ItemsRows .f32 :=
  Layer.entitiesOut (layerOf (rowsTimes (launchTable m c) (m ((c : Thread nD τ).loc main_arg7))) (m ((c : Thread nD τ).loc main_arg2)))

theorem users_eq (c : Dev nD) :
    Pipeline.afterTail₀ cfgs (dats m) 0 (V0 m) [hostOps1, hostOps1_1, hostOps1_2, hostOps1_3, hostOps1_4] c main_v55 = usersResult m c := by
  unfold Pipeline.afterTail₀
  rw [tail_users, left_output, left_edges]

theorem entities_eq (c : Dev nD) :
    Pipeline.afterTail₀ cfgs (dats m) 0 (V0 m) [hostOps1, hostOps1_1, hostOps1_2, hostOps1_3, hostOps1_4] c main_v56 = entitiesResult m c := by
  unfold Pipeline.afterTail₀
  rw [tail_entities, left_output, left_edges]

/-- THE KERNEL PROGRAM'S RUN: every weakly fair execution terminates with the two results at the layer's functions of
    the launch contents and the arguments unchanged. -/
theorem run : θ_run defs (onTc (τ := τ) (main (F := Ideal))) ⟨m, fun _ => 0, ρ⟩ (fun r => ∀ c : Dev nD,
      r.2.mem ((c.tc : Thread nD τ).loc main_v55) = usersResult m c
      ∧ r.2.mem ((c.tc : Thread nD τ).loc main_v56) = entitiesResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v55 (Pipeline.mem_restRefs_of main_v55 (by decide) (by decide))).trans (users_eq m c),
      ((h c).2 main_v56 (Pipeline.mem_restRefs_of main_v56 (by decide) (by decide))).trans (entities_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 1).trans (((dats m 0 c).arrAt_in 1 rfl _).trans ((A_eq m c 1).trans (V_main_arg7 m c))),
      ((h c).2 main_arg8 (Pipeline.mem_restRefs_of main_arg8 (by decide) (by decide))).trans (W_main_arg8 m (dats m) c)⟩)
    (run_main m ρ)

end Cert.KernelIdeal.Run

end
-- ==== Proof.RefOps.lean ====
/- (the script is filed with the unit). The reference program's host operations as lists, one per window of its
   @main, each call replaced by the callee's operations at the call's own buffers; with each list the fact that its
   operations touch TensorCore references only; and their concatenation. A table read off the printed program: the
   theorems about it are in the modules that import it. -/
import proofs.«422671_j86955907875600_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 19 (in window main_part0 of its @main), in order. -/
abbrev opsA : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 50000#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg5 main_v5 main_v6 ((fun x i => Host.gather gather_S50000x64_S50000x1_S50000x64_1_0_n_n_0_1_164 x i) : (⟨S50000x64, .f32⟩ : BufTy).Contents (Elt F) → (⟨S50000x1, .i32⟩ : BufTy).Contents (Elt F) → (⟨S50000x64, .f32⟩ : BufTy).Contents (Elt F)),
    StableHlo.nullary main_c_1 (constantI S_ 32 0#32),
    StableHlo.unary main_c_1 main_v7 (broadcastInDim S100000 ![] bcast_S_S100000 : (⟨S_, .i32⟩ : BufTy).Contents (Elt F) → (⟨S100000, .i32⟩ : BufTy).Contents (Elt F)),
    StableHlo.binary main_arg1 main_v7 main_v8 (cmpi .slt : (⟨S100000, .i32⟩ : BufTy).Contents (Elt F) → (⟨S100000, .i32⟩ : BufTy).Contents (Elt F) → (⟨S100000, .i1⟩ : BufTy).Contents (Elt F)),
    StableHlo.nullary main_c_2 (constantI S_ 32 100000#32),
    StableHlo.unary main_c_2 main_v9 (broadcastInDim S100000 ![] bcast_S_S100000 : (⟨S_, .i32⟩ : BufTy).Contents (Elt F) → (⟨S100000, .i32⟩ : BufTy).Contents (Elt F)),
    StableHlo.binary main_arg1 main_v9 main_v10 (addi : (⟨S100000, .i32⟩ : BufTy).Contents (Elt F) → (⟨S100000, .i32⟩ : BufTy).Contents (Elt F) → (⟨S100000, .i32⟩ : BufTy).Contents (Elt F)),
    StableHlo.ternary main_v8 main_v10 main_arg1 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v11 main_v12 (broadcastInDim S100000x1 ![0] bcast_S100000_S100000x1_0 : (⟨S100000, .i32⟩ : BufTy).Contents (Elt F) → (⟨S100000x1, .i32⟩ : BufTy).Contents (Elt F)),
    StableHlo.binary main_arg6 main_v12 main_v13 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    StableHlo.binary main_v6 main_v13 main_v14 ((fun a b => concatenate S150000x64 0 [⟨S50000x64, a⟩, ⟨S100000x64, b⟩] concatenates_S50000x64_S100000x64_S150000x64_d0) : (⟨S50000x64, .f32⟩ : BufTy).Contents (Elt F) → (⟨S100000x64, .f32⟩ : BufTy).Contents (Elt F) → (⟨S150000x64, .f32⟩ : BufTy).Contents (Elt F)) ]

set_option maxRecDepth 8192 in
/-- Each of them touches TensorCore references only. -/
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The reference's operations 20 … 43 (in window main_part0 of its @main), in order. -/
abbrev opsB : List (HloOp τ sig (Elt F)) :=
  [ StableHlo.unary main_arg2 main_v15 ((extractStridedSlice S1x1500000 ![0, 0] · slices_S2x1500000_S1x1500000_0_0) : (⟨S2x1500000, .i32⟩ : BufTy).Contents (Elt F) → (⟨S1x1500000, .i32⟩ : BufTy).Contents (Elt F)),
    StableHlo.reshape main_v15 main_v16 rfl shapeCasts_S1x1500000_S1500000,
    StableHlo.unary main_arg2 main_v17 ((extractStridedSlice S1x1500000 ![1, 0] · slices_S2x1500000_S1x1500000_1_0) : (⟨S2x1500000, .i32⟩ : BufTy).Contents (Elt F) → (⟨S1x1500000, .i32⟩ : BufTy).Contents (Elt F)),
    StableHlo.reshape main_v17 main_v18 rfl shapeCasts_S1x1500000_S1500000,
    StableHlo.nullary main_c_3 (constantI S_ 32 0#32),
    StableHlo.unary main_c_3 main_v19 (broadcastInDim S1500000 ![] bcast_S_S1500000 : (⟨S_, .i32⟩ : BufTy).Contents (Elt F) → (⟨S1500000, .i32⟩ : BufTy).Contents (Elt F)),
    StableHlo.binary main_v16 main_v19 main_v20 (cmpi .slt : (⟨S1500000, .i32⟩ : BufTy).Contents (Elt F) → (⟨S1500000, .i32⟩ : BufTy).Contents (Elt F) → (⟨S1500000, .i1⟩ : BufTy).Contents (Elt F)),
    StableHlo.nullary main_c_4 (constantI S_ 32 150000#32),
    StableHlo.unary main_c_4 main_v21 (broadcastInDim S1500000 ![] bcast_S_S1500000 : (⟨S_, .i32⟩ : BufTy).Contents (Elt F) → (⟨S1500000, .i32⟩ : BufTy).Contents (Elt F)),
    StableHlo.binary main_v16 main_v21 main_v22 (addi : (⟨S1500000, .i32⟩ : BufTy).Contents (Elt F) → (⟨S1500000, .i32⟩ : BufTy).Contents (Elt F) → (⟨S1500000, .i32⟩ : BufTy).Contents (Elt F)),
    StableHlo.ternary main_v20 main_v22 main_v16 main_v23 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v23 main_v24 (broadcastInDim S1500000x1 ![0] bcast_S1500000_S1500000x1_0 : (⟨S1500000, .i32⟩ : BufTy).Contents (Elt F) → (⟨S1500000x1, .i32⟩ : BufTy).Contents (Elt F)),
    StableHlo.binary main_v14 main_v24 main_v25 ((fun x i => Host.gather gather_S150000x64_S1500000x1_S1500000x64_1_0_n_n_0_1_164 x i) : (⟨S150000x64, .f32⟩ : BufTy).Contents (Elt F) → (⟨S1500000x1, .i32⟩ : BufTy).Contents (Elt F) → (⟨S1500000x64, .f32⟩ : BufTy).Contents (Elt F)),
    StableHlo.nullary main_c_5 (constantI S_ 32 0#32),
    StableHlo.unary main_c_5 main_v26 (broadcastInDim S1500000 ![] bcast_S_S1500000 : (⟨S_, .i32⟩ : BufTy).Contents (Elt F) → (⟨S1500000, .i32⟩ : BufTy).Contents (Elt F)),
    StableHlo.binary main_v18 main_v26 main_v27 (cmpi .slt : (⟨S1500000, .i32⟩ : BufTy).Contents (Elt F) → (⟨S1500000, .i32⟩ : BufTy).Contents (Elt F) → (⟨S1500000, .i1⟩ : BufTy).Contents (Elt F)),
    StableHlo.nullary main_c_6 (constantI S_ 32 150000#32),
    StableHlo.unary main_c_6 main_v28 (broadcastInDim S1500000 ![] bcast_S_S1500000 : (⟨S_, .i32⟩ : BufTy).Contents (Elt F) → (⟨S1500000, .i32⟩ : BufTy).Contents (Elt F)),
    StableHlo.binary main_v18 main_v28 main_v29 (addi : (⟨S1500000, .i32⟩ : BufTy).Contents (Elt F) → (⟨S1500000, .i32⟩ : BufTy).Contents (Elt F) → (⟨S1500000, .i32⟩ : BufTy).Contents (Elt F)),
    StableHlo.ternary main_v27 main_v29 main_v18 main_v30 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    StableHlo.unary main_v30 main_v31 (broadcastInDim S1500000x1 ![0] bcast_S1500000_S1500000x1_0 : (⟨S1500000, .i32⟩ : BufTy).Contents (Elt F) → (⟨S1500000x1, .i32⟩ : BufTy).Contents (Elt F)),
    StableHlo.binary main_v14 main_v31 main_v32 ((fun x i => Host.gather gather_S150000x64_S1500000x1_S1500000x64_1_0_n_n_0_1_164 x i) : (⟨S150000x64, .f32⟩ : BufTy).Contents (Elt F) → (⟨S1500000x1, .i32⟩ : BufTy).Contents (Elt F) → (⟨S1500000x64, .f32⟩ : BufTy).Contents (Elt F)),
    StableHlo.binary main_v25 main_arg7 main_v33 ((fun l r => Host.dotGeneral dot_S1500000x64_S64x64_S1500000x64_1_0_0_1_n_n none l r) : (⟨S1500000x64, .f32⟩ : BufTy).Contents (Elt F) → (⟨S64x64, .f32⟩ : BufTy).Contents (Elt F) → (⟨S1500000x64, .f32⟩ : BufTy).Contents (Elt F)),
    StableHlo.binary main_v32 main_arg7 main_v34 ((fun l r => Host.dotGeneral dot_S1500000x64_S64x64_S1500000x64_1_0_0_1_n_n none l r) : (⟨S1500000x64, .f32⟩ : BufTy).Contents (Elt F) → (⟨S64x64, .f32⟩ : BufTy).Contents (Elt F) → (⟨S1500000x64, .f32⟩ : BufTy).Contents (Elt F)) ]

set_option maxRecDepth 8192 in
/-- Each of them touches TensorCore references only. -/
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- The reference's operations 44 … 66 (in window main_part0 of its @main), in order. -/
abbrev opsC : List (HloOp τ sig (Elt F)) :=
  [ StableHlo.binary main_v34 main_v33 main_v35 (mulf : (⟨S1500000x64, .f32⟩ : BufTy).Contents (Elt F) → (⟨S1500000x64, .f32⟩ : BufTy).Contents (Elt F) → (⟨S1500000x64, .f32⟩ : BufTy).Contents (Elt F)),
    StableHlo.nullary main_cst (constant S_ .f32 0x00000000#32),
    StableHlo.binary main_v35 main_cst main_v36 ((fun x v => Host.reduceAdd x v reducesTo_S1500000x64_S1500000_d1 h_S_) : (⟨S1500000x64, .f32⟩ : BufTy).Contents (Elt F) → (⟨S_, .f32⟩ : BufTy).Contents (Elt F) → (⟨S1500000, .f32⟩ : BufTy).Contents (Elt F)),
    StableHlo.unary main_v36 main_v37 (broadcastInDim S1500000x1 ![0] bcast_S1500000_S1500000x1_0 : (⟨S1500000, .f32⟩ : BufTy).Contents (Elt F) → (⟨S1500000x1, .f32⟩ : BufTy).Contents (Elt F)),
    StableHlo.nullary main_cst_7 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1500000x1, .f32⟩) (broadcastInDim S1500000x1 ![] bcast_S_S1500000x1),
    StableHlo.TRef.binary (.of main_v37 : StableHlo.TRef sig ⟨S1500000x1, .f32⟩) (.of main_call0_v0 : StableHlo.TRef sig ⟨S1500000x1, .f32⟩) (.of main_call0_v1 : StableHlo.TRef sig ⟨S1500000x1, .i1⟩) (cmpf .oge),
    StableHlo.TRef.unary (.of main_cst_7 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1500000x1, .f32⟩) (broadcastInDim S1500000x1 ![] bcast_S_S1500000x1),
    StableHlo.TRef.binary (.of main_call0_v3 : StableHlo.TRef sig ⟨S1500000x1, .f32⟩) (.of main_v37 : StableHlo.TRef sig ⟨S1500000x1, .f32⟩) (.of main_call0_v4 : StableHlo.TRef sig ⟨S1500000x1, .f32⟩) mulf,
    StableHlo.TRef.ternary (.of main_call0_v1 : StableHlo.TRef sig ⟨S1500000x1, .i1⟩) (.of main_v37 : StableHlo.TRef sig ⟨S1500000x1, .f32⟩) (.of main_call0_v4 : StableHlo.TRef sig ⟨S1500000x1, .f32⟩) (.of main_v38 : StableHlo.TRef sig ⟨S1500000x1, .f32⟩) select,
    StableHlo.nullary main_cst_8 (constant S_ .f32 0xFF800000#32),
    StableHlo.binary main_v38 main_cst_8 main_v39 ((fun x v => Host.reduce FloatOps.maximumf x v reducesTo_S1500000x1_S1_d0 h_S_) : (⟨S1500000x1, .f32⟩ : BufTy).Contents (Elt F) → (⟨S_, .f32⟩ : BufTy).Contents (Elt F) → (⟨S1, .f32⟩ : BufTy).Contents (Elt F)),
    StableHlo.nullary main_cst_9 (constant S_ .f32 0xFF800000#32),
    StableHlo.unary main_cst_9 main_v40 (broadcastInDim S1 ![] bcast_S_S1 : (⟨S_, .f32⟩ : BufTy).Contents (Elt F) → (⟨S1, .f32⟩ : BufTy).Contents (Elt F)),
    StableHlo.binary main_v40 main_v39 main_v41 (maximumf : (⟨S1, .f32⟩ : BufTy).Contents (Elt F) → (⟨S1, .f32⟩ : BufTy).Contents (Elt F) → (⟨S1, .f32⟩ : BufTy).Contents (Elt F)),
    StableHlo.unary main_v41 main_v42 (broadcastInDim S1x1 ![1] bcast_S1_S1x1_1 : (⟨S1, .f32⟩ : BufTy).Contents (Elt F) → (⟨S1x1, .f32⟩ : BufTy).Contents (Elt F)),
    StableHlo.unary main_v42 main_v43 (broadcastInDim S1500000x1 ![0, 1] bcast_S1x1_S1500000x1_0_1 : (⟨S1x1, .f32⟩ : BufTy).Contents (Elt F) → (⟨S1500000x1, .f32⟩ : BufTy).Contents (Elt F)),
    StableHlo.binary main_v38 main_v43 main_v44 (subf : (⟨S1500000x1, .f32⟩ : BufTy).Contents (Elt F) → (⟨S1500000x1, .f32⟩ : BufTy).Contents (Elt F) → (⟨S1500000x1, .f32⟩ : BufTy).Contents (Elt F)),
    StableHlo.unary main_v44 main_v45 (Host.exp : (⟨S1500000x1, .f32⟩ : BufTy).Contents (Elt F) → (⟨S1500000x1, .f32⟩ : BufTy).Contents (Elt F)),
    StableHlo.nullary main_cst_10 (constant S_ .f32 0x00000000#32),
    StableHlo.binary main_v45 main_cst_10 main_v46 ((fun x v => Host.reduceAdd x v reducesTo_S1500000x1_S1_d0 h_S_) : (⟨S1500000x1, .f32⟩ : BufTy).Contents (Elt F) → (⟨S_, .f32⟩ : BufTy).Contents (Elt F) → (⟨S1, .f32⟩ : BufTy).Contents (Elt F)) ]

set_option maxRecDepth 8192 in
/-- Each of them touches TensorCore references only. -/
theorem opsC_sub : (opsC : List (HloOp τ sig (Elt F))).Forall fun op => op.bufs ⊆ tcRefs τ sig :=
  ⟨binary_bufs_sub .., nullary_bufs_sub .., binary_bufs_sub .., unary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

/-- The operations of window main_part0. -/
abbrev window0 : List (HloOp τ sig (Elt F)) :=
  opsA ++ (opsB ++ (opsC))

/-- The reference's operations 67 … 132 (in window main_part1 of its @main), in order. -/
abbrev opsD : List (HloOp τ sig (Elt F)) :=
  [ StableHlo.unary main_v46 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S1500000x1 ![0, 1] bcast_S1x1_S1500000x1_0_1 : (⟨S1x1, .f32⟩ : BufTy).Contents (Elt F) → (⟨S1500000x1, .f32⟩ : BufTy).Contents (Elt F)),
    StableHlo.binary main_v45 main_v48 main_v49 (Host.divf : (⟨S1500000x1, .f32⟩ : BufTy).Contents (Elt F) → (⟨S1500000x1, .f32⟩ : BufTy).Contents (Elt F) → (⟨S1500000x1, .f32⟩ : BufTy).Contents (Elt F)),
    StableHlo.unary main_v49 main_v50 (broadcastInDim S1500000x64 ![0, 1] bcast_S1500000x1_S1500000x64_0_1 : (⟨S1500000x1, .f32⟩ : BufTy).Contents (Elt F) → (⟨S1500000x64, .f32⟩ : BufTy).Contents (Elt F)),
    StableHlo.binary main_v50 main_v33 main_v51 (mulf : (⟨S1500000x64, .f32⟩ : BufTy).Contents (Elt F) → (⟨S1500000x64, .f32⟩ : BufTy).Contents (Elt F) → (⟨S1500000x64, .f32⟩ : BufTy).Contents (Elt F)),
    StableHlo.nullary main_cst_11 (constant S_ .f32 0x00000000#32),
    StableHlo.unary main_cst_11 main_v52 (broadcastInDim S150000x64 ![] bcast_S_S150000x64 : (⟨S_, .f32⟩ : BufTy).Contents (Elt F) → (⟨S150000x64, .f32⟩ : BufTy).Contents (Elt F)),
    StableHlo.unary main_v18 main_v53 (broadcastInDim S1500000x1 ![0] bcast_S1500000_S1500000x1_0 : (⟨S1500000, .i32⟩ : BufTy).Contents (Elt F) → (⟨S1500000x1, .i32⟩ : BufTy).Contents (Elt F)),
    StableHlo.ternary main_v52 main_v53 main_v51 main_v54 ((fun x i u => Host.scatterAdd scatter_S150000x64_S1500000x1_S1500000x64_1_0_0_1 x i u) : (⟨S150000x64, .f32⟩ : BufTy).Contents (Elt F) → (⟨S1500000x1, .i32⟩ : BufTy).Contents (Elt F) → (⟨S1500000x64, .f32⟩ : BufTy).Contents (Elt F) → (⟨S150000x64, .f32⟩ : BufTy).Contents (Elt F)),
    StableHlo.unary main_arg3 main_v55 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v55 main_v56 rfl shapeCasts_S1x100000_S100000,
    StableHlo.unary main_arg3 main_v57 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v57 main_v58 rfl shapeCasts_S1x100000_S100000,
    StableHlo.nullary main_c_12 (constantI S_ 32 0#32),
    StableHlo.unary main_c_12 main_v59 (broadcastInDim S100000 ![] bcast_S_S100000 : (⟨S_, .i32⟩ : BufTy).Contents (Elt F) → (⟨S100000, .i32⟩ : BufTy).Contents (Elt F)),
    StableHlo.binary main_v56 main_v59 main_v60 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 100000#32),
    StableHlo.unary main_c_13 main_v61 (broadcastInDim S100000 ![] bcast_S_S100000 : (⟨S_, .i32⟩ : BufTy).Contents (Elt F) → (⟨S100000, .i32⟩ : BufTy).Contents (Elt F)),
    StableHlo.binary main_v56 main_v61 main_v62 (addi : (⟨S100000, .i32⟩ : BufTy).Contents (Elt F) → (⟨S100000, .i32⟩ : BufTy).Contents (Elt F) → (⟨S100000, .i32⟩ : BufTy).Contents (Elt F)),
    StableHlo.ternary main_v60 main_v62 main_v56 main_v63 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v63 main_v64 (broadcastInDim S100000x1 ![0] bcast_S100000_S100000x1_0 : (⟨S100000, .i32⟩ : BufTy).Contents (Elt F) → (⟨S100000x1, .i32⟩ : BufTy).Contents (Elt F)),
    StableHlo.binary main_v13 main_v64 main_v65 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    StableHlo.nullary main_c_14 (constantI S_ 32 0#32),
    StableHlo.unary main_c_14 main_v66 (broadcastInDim S100000 ![] bcast_S_S100000 : (⟨S_, .i32⟩ : BufTy).Contents (Elt F) → (⟨S100000, .i32⟩ : BufTy).Contents (Elt F)),
    StableHlo.binary main_v58 main_v66 main_v67 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 100000#32),
    StableHlo.unary main_c_15 main_v68 (broadcastInDim S100000 ![] bcast_S_S100000 : (⟨S_, .i32⟩ : BufTy).Contents (Elt F) → (⟨S100000, .i32⟩ : BufTy).Contents (Elt F)),
    StableHlo.binary main_v58 main_v68 main_v69 (addi : (⟨S100000, .i32⟩ : BufTy).Contents (Elt F) → (⟨S100000, .i32⟩ : BufTy).Contents (Elt F) → (⟨S100000, .i32⟩ : BufTy).Contents (Elt F)),
    StableHlo.ternary main_v67 main_v69 main_v58 main_v70 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v70 main_v71 (broadcastInDim S100000x1 ![0] bcast_S100000_S100000x1_0 : (⟨S100000, .i32⟩ : BufTy).Contents (Elt F) → (⟨S100000x1, .i32⟩ : BufTy).Contents (Elt F)),
    StableHlo.binary main_v13 main_v71 main_v72 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    StableHlo.nullary main_c_16 (constantI S_ 32 0#32),
    StableHlo.unary main_c_16 main_v73 (broadcastInDim S100000 ![] bcast_S_S100000 : (⟨S_, .i32⟩ : BufTy).Contents (Elt F) → (⟨S100000, .i32⟩ : BufTy).Contents (Elt F)),
    StableHlo.binary main_arg4 main_v73 main_v74 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 16#32),
    StableHlo.unary main_c_17 main_v75 (broadcastInDim S100000 ![] bcast_S_S100000 : (⟨S_, .i32⟩ : BufTy).Contents (Elt F) → (⟨S100000, .i32⟩ : BufTy).Contents (Elt F)),
    StableHlo.binary main_arg4 main_v75 main_v76 (addi : (⟨S100000, .i32⟩ : BufTy).Contents (Elt F) → (⟨S100000, .i32⟩ : BufTy).Contents (Elt F) → (⟨S100000, .i32⟩ : BufTy).Contents (Elt F)),
    StableHlo.ternary main_v74 main_v76 main_arg4 main_v77 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v77 main_v78 (broadcastInDim S100000x1 ![0] bcast_S100000_S100000x1_0 : (⟨S100000, .i32⟩ : BufTy).Contents (Elt F) → (⟨S100000x1, .i32⟩ : BufTy).Contents (Elt F)),
    StableHlo.binary main_arg8 main_v78 main_v79 ((fun x i => Host.gather gather_S16x64x64_S100000x1_S100000x64x64_12_0_n_n_0_1_16464 x i) : (⟨S16x64x64, .f32⟩ : BufTy).Contents (Elt F) → (⟨S100000x1, .i32⟩ : BufTy).Contents (Elt F) → (⟨S100000x64x64, .f32⟩ : BufTy).Contents (Elt F)),
    StableHlo.binary main_v65 main_v79 main_v80 ((fun l r => Host.dotGeneral dot_S100000x64_S100000x64x64_S100000x64_1_1_n_2_0_0 none l r) : (⟨S100000x64, .f32⟩ : BufTy).Contents (Elt F) → (⟨S100000x64x64, .f32⟩ : BufTy).Contents (Elt F) → (⟨S100000x64, .f32⟩ : BufTy).Contents (Elt F)),
    StableHlo.binary main_v72 main_arg7 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v81 main_v80 main_v82 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x00000000#32),
    StableHlo.binary main_v82 main_cst_18 main_v83 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v83 main_v84 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x1, .f32⟩) (broadcastInDim S100000x1 ![] bcast_S_S100000x1),
    StableHlo.TRef.binary (.of main_v84 : StableHlo.TRef sig ⟨S100000x1, .f32⟩) (.of main_call1_v0 : StableHlo.TRef sig ⟨S100000x1, .f32⟩) (.of main_call1_v1 : StableHlo.TRef sig ⟨S100000x1, .i1⟩) (cmpf .oge),
    StableHlo.TRef.unary (.of main_cst_19 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x1, .f32⟩) (broadcastInDim S100000x1 ![] bcast_S_S100000x1),
    StableHlo.TRef.binary (.of main_call1_v3 : StableHlo.TRef sig ⟨S100000x1, .f32⟩) (.of main_v84 : StableHlo.TRef sig ⟨S100000x1, .f32⟩) (.of main_call1_v4 : StableHlo.TRef sig ⟨S100000x1, .f32⟩) mulf,
    StableHlo.TRef.ternary (.of main_call1_v1 : StableHlo.TRef sig ⟨S100000x1, .i1⟩) (.of main_v84 : StableHlo.TRef sig ⟨S100000x1, .f32⟩) (.of main_call1_v4 : StableHlo.TRef sig ⟨S100000x1, .f32⟩) (.of main_v85 : StableHlo.TRef sig ⟨S100000x1, .f32⟩) select,
    StableHlo.nullary main_cst_20 (constant S_ .f32 0xFF800000#32),
    StableHlo.binary main_v85 main_cst_20 main_v86 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    StableHlo.nullary main_cst_21 (constant S_ .f32 0xFF800000#32),
    StableHlo.unary main_cst_21 main_v87 (broadcastInDim S1 ![] bcast_S_S1 : (⟨S_, .f32⟩ : BufTy).Contents (Elt F) → (⟨S1, .f32⟩ : BufTy).Contents (Elt F)),
    StableHlo.binary main_v87 main_v86 main_v88 (maximumf : (⟨S1, .f32⟩ : BufTy).Contents (Elt F) → (⟨S1, .f32⟩ : BufTy).Contents (Elt F) → (⟨S1, .f32⟩ : BufTy).Contents (Elt F)),
    StableHlo.unary main_v88 main_v89 (broadcastInDim S1x1 ![1] bcast_S1_S1x1_1 : (⟨S1, .f32⟩ : BufTy).Contents (Elt F) → (⟨S1x1, .f32⟩ : BufTy).Contents (Elt F)),
    StableHlo.unary main_v89 main_v90 (broadcastInDim S100000x1 ![0, 1] bcast_S1x1_S100000x1_0_1 : (⟨S1x1, .f32⟩ : BufTy).Contents (Elt F) → (⟨S100000x1, .f32⟩ : BufTy).Contents (Elt F)),
    StableHlo.binary main_v85 main_v90 main_v91 (subf : (⟨S100000x1, .f32⟩ : BufTy).Contents (Elt F) → (⟨S100000x1, .f32⟩ : BufTy).Contents (Elt F) → (⟨S100000x1, .f32⟩ : BufTy).Contents (Elt F)),
    StableHlo.unary main_v91 main_v92 (Host.exp : (⟨S100000x1, .f32⟩ : BufTy).Contents (Elt F) → (⟨S100000x1, .f32⟩ : BufTy).Contents (Elt F)),
    StableHlo.nullary main_cst_22 (constant S_ .f32 0x00000000#32),
    StableHlo.binary main_v92 main_cst_22 main_v93 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)),
    StableHlo.unary main_v93 main_v94 (broadcastInDim S1x1 ![1] bcast_S1_S1x1_1 : (⟨S1, .f32⟩ : BufTy).Contents (Elt F) → (⟨S1x1, .f32⟩ : BufTy).Contents (Elt F)) ]

set_option maxRecDepth 8192 in
/-- Each of them touches TensorCore references only. -/
theorem opsD_sub : (opsD : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., unary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩

/-- The operations of window main_part1. -/
abbrev window1 : List (HloOp τ sig (Elt F)) :=
  opsD

/-- The reference's operations 133 … 148 (in window main_part2 of its @main), in order. -/
abbrev opsE : List (HloOp τ sig (Elt F)) :=
  [ StableHlo.unary main_v94 main_v95 (broadcastInDim S100000x1 ![0, 1] bcast_S1x1_S100000x1_0_1 : (⟨S1x1, .f32⟩ : BufTy).Contents (Elt F) → (⟨S100000x1, .f32⟩ : BufTy).Contents (Elt F)),
    StableHlo.binary main_v92 main_v95 main_v96 (Host.divf : (⟨S100000x1, .f32⟩ : BufTy).Contents (Elt F) → (⟨S100000x1, .f32⟩ : BufTy).Contents (Elt F) → (⟨S100000x1, .f32⟩ : BufTy).Contents (Elt F)),
    StableHlo.unary main_v96 main_v97 (broadcastInDim S100000x64 ![0, 1] bcast_S100000x1_S100000x64_0_1 : (⟨S100000x1, .f32⟩ : BufTy).Contents (Elt F) → (⟨S100000x64, .f32⟩ : BufTy).Contents (Elt F)),
    StableHlo.binary main_v97 main_v80 main_v98 (mulf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x00000000#32),
    StableHlo.unary main_cst_23 main_v99 (broadcastInDim S100000x64 ![] bcast_S_S100000x64 : (⟨S_, .f32⟩ : BufTy).Contents (Elt F) → (⟨S100000x64, .f32⟩ : BufTy).Contents (Elt F)),
    StableHlo.unary main_v58 main_v100 (broadcastInDim S100000x1 ![0] bcast_S100000_S100000x1_0 : (⟨S100000, .i32⟩ : BufTy).Contents (Elt F) → (⟨S100000x1, .i32⟩ : BufTy).Contents (Elt F)),
    StableHlo.ternary main_v99 main_v100 main_v98 main_v101 ((fun x i u => Host.scatterAdd scatter_S100000x64_S100000x1_S100000x64_1_0_0_1 x i u) : (⟨S100000x64, .f32⟩ : BufTy).Contents (Elt F) → (⟨S100000x1, .i32⟩ : BufTy).Contents (Elt F) → (⟨S100000x64, .f32⟩ : BufTy).Contents (Elt F) → (⟨S100000x64, .f32⟩ : BufTy).Contents (Elt F)),
    StableHlo.nullary main_c_24 (constantI S_ 32 50000#32),
    StableHlo.unary main_c_24 main_v102 (broadcastInDim S1 ![] bcast_S_S1 : (⟨S_, .i32⟩ : BufTy).Contents (Elt F) → (⟨S1, .i32⟩ : BufTy).Contents (Elt F)),
    StableHlo.ternary main_v14 main_v102 main_v101 main_v103 ((fun x i u => Host.scatter scatter_S150000x64_S1_S100000x64_01_n_0_0 FloatOps.addf x i u) : (⟨S150000x64, .f32⟩ : BufTy).Contents (Elt F) → (⟨S1, .i32⟩ : BufTy).Contents (Elt F) → (⟨S100000x64, .f32⟩ : BufTy).Contents (Elt F) → (⟨S150000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S150000x64, .f32⟩) (broadcastInDim S150000x64 ![] bcast_S_S150000x64),
    StableHlo.TRef.binary (.of main_v54 : StableHlo.TRef sig ⟨S150000x64, .f32⟩) (.of main_call2_v0 : StableHlo.TRef sig ⟨S150000x64, .f32⟩) (.of main_v104 : StableHlo.TRef sig ⟨S150000x64, .f32⟩) maximumf,
    StableHlo.unary main_v104 main_v105 ((extractStridedSlice S50000x64 ![0, 0] · slices_S150000x64_S50000x64_0_0) : (⟨S150000x64, .f32⟩ : BufTy).Contents (Elt F) → (⟨S50000x64, .f32⟩ : BufTy).Contents (Elt F)),
    StableHlo.unary main_v104 main_v106 ((extractStridedSlice S100000x64 ![50000, 0] · slices_S150000x64_S100000x64_50000_0) : (⟨S150000x64, .f32⟩ : BufTy).Contents (Elt F) → (⟨S100000x64, .f32⟩ : BufTy).Contents (Elt F)) ]

set_option maxRecDepth 8192 in
/-- Each of them touches TensorCore references only. -/
theorem opsE_sub : (opsE : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., nullary_bufs_sub .., unary_bufs_sub .., ternary_bufs_sub .., nullary_bufs_sub .., unary_bufs_sub .., binary_bufs_sub .., unary_bufs_sub .., unary_bufs_sub ..⟩

/-- The operations of window main_part2. -/
abbrev window2 : List (HloOp τ sig (Elt F)) :=
  opsE

/-- The reference's 148 operations, in order: the windows' lists one after the other. -/
abbrev ops : List (HloOp τ sig (Elt F)) :=
  window0 ++ (window1 ++ (window2))

end Cert.ReferenceIdeal.RefOps

end
-- ==== Proof.RefRun.lean ====
/-
  The reference program's run, read as the layer's functions.

  The reference's @main is a straight line of host operations (its calls of `leaky_relu` and `relu` run their bodies in
  place), so every weakly fair execution ends with each buffer at the fold of the operations' results over the launch
  contents. Read stretch by stretch:
  * operations 1 … 19 build the node embeddings `Layer.table` of the four arguments they read;
  * operations 20 … 43 take the two rows of the edge list, gather the table's rows at the sources and at the
    destinations and multiply each gathered matrix by `W`;
  * operations 44 … 66 form the logits, `leaky_relu` and the exponentials less the maximum, and their sum;
  * operations 67 … 132 divide by the sum, scale the source rows and sum them into the destination nodes (and compute a
    second layer over the knowledge-graph edges whose result no later operation reads);
  * operations 133 … 148 apply `relu` and cut the users' and the entities' rows.
  No operation writes an argument.
-/
import proofs.«422671_j86955907875600_3_alg».proof.Proof.RefOps
import proofs.«422671_j86955907875600_3_alg».proof.Proof.Layer
import Idealize.ShloMosaic.Lib.Pipeline.Frame

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-! ## @main is the straight line -/

set_option maxRecDepth 8192 in
set_option maxHeartbeats 4000000 in
theorem main_part0_eq (c : Dev nD) : main_part0 (F := F) c = seq window0 := rfl

set_option maxRecDepth 8192 in
set_option maxHeartbeats 4000000 in
theorem main_part1_eq (c : Dev nD) : main_part1 (F := F) c = seq window1 := rfl

set_option maxRecDepth 8192 in
set_option maxHeartbeats 4000000 in
theorem main_part2_eq (c : Dev nD) : main_part2 (F := F) c = seq window2 := rfl

/-- @main runs its three windows in order, and a line run after a line is their concatenation run as one. -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = (seq window0 >>= fun _ => (seq window1 >>= fun _ => seq window2)) :=
    (seq_append window0 (window1 ++ window2)).trans (by rw [seq_append window1 window2])
  rw [h, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, window0, window1, window2, List.mem_append] at h
    rcases h with (h | h | h) | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

/-- From any memory with zero counters every weakly fair execution of the reference's @main terminates, and every final
    state has each TensorCore buffer at the operations' fold over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefValue.lean ====
/-
  The reference program's results as the layer's functions of its arguments.

  Each stretch of the reference's operations is read from ANY contents `W` of the buffers: what it leaves in the buffers
  later stretches read, as the `Layer` functions of what `W` holds in the buffers it reads. Chained, the five stretches
  give the two results: the users' and the entities' rows of `Layer.aggregate` applied to the two products
  "gathered rows of the table times `W`" and the destinations. The knowledge-graph layer's operations write buffers no
  result depends on.
-/
import proofs.«422671_j86955907875600_3_alg».proof.Proof.RefRun

noncomputable section

namespace Cert.ReferenceIdeal.RefValue

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-! ## Operations 1 … 19: the node embeddings -/

set_option maxHeartbeats 4000000 in
theorem table_eq (V : Valuation τ sig (Elt F)) :
    after opsA V (Proc.devRef .tc main_v14)
      = Layer.table (V (Proc.devRef .tc main_arg0)) (V (Proc.devRef .tc main_arg1)) (V (Proc.devRef .tc main_arg5))
          (V (Proc.devRef .tc main_arg6)) := by
  after_results <;> rfl

theorem opsA_edges (V : Valuation τ sig (Elt F)) :
    after opsA V (Proc.devRef .tc main_arg2) = V (Proc.devRef .tc main_arg2) := by
  after_results

theorem opsA_weight (V : Valuation τ sig (Elt F)) :
    after opsA V (Proc.devRef .tc main_arg7) = V (Proc.devRef .tc main_arg7) := by
  after_results

/-! ## Operations 20 … 43: the edges' rows of the table, times `W` -/

/-- The table's rows at a row of node numbers, times `W`. -/
abbrev rowsProduct (table : FVec F Layer.NodeRows .f32) (w : FVec F Layer.Square .f32) (nodes : IVec Layer.Edges 32) :
    FVec F Layer.EdgeRows .f32 :=
  Host.dotGeneral Layer.dotEdges none (Host.gather Layer.gatherEdges table (Layer.edgeColumn nodes)) w

set_option maxHeartbeats 4000000 in
theorem sources_product (W : Valuation τ sig (Elt F)) :
    after opsB W (Proc.devRef .tc main_v33)
      = rowsProduct (W (Proc.devRef .tc main_v14)) (W (Proc.devRef .tc main_arg7)) (Layer.sources (W (Proc.devRef .tc main_arg2))) := by
  after_results_simp <;> rfl

set_option maxHeartbeats 4000000 in
theorem destinations_product (W : Valuation τ sig (Elt F)) :
    after opsB W (Proc.devRef .tc main_v34)
      = rowsProduct (W (Proc.devRef .tc main_v14)) (W (Proc.devRef .tc main_arg7)) (Layer.destinations (W (Proc.devRef .tc main_arg2))) := by
  after_results_simp <;> rfl

set_option maxHeartbeats 4000000 in
theorem destinations_eq (W : Valuation τ sig (Elt F)) :
    after opsB W (Proc.devRef .tc main_v18) = Layer.destinations (W (Proc.devRef .tc main_arg2)) := by
  after_results_simp <;> rfl

/-! ## Operations 44 … 66: logits, `leaky_relu`, the exponentials and their sum -/

set_option maxHeartbeats 4000000 in
theorem exps_eq (W : Valuation τ sig (Elt F)) :
    after opsC W (Proc.devRef .tc main_v45)
      = Layer.shiftedExp (Layer.leaky (Layer.logits (W (Proc.devRef .tc main_v34)) (W (Proc.devRef .tc main_v33)))) := by
  after_results_simp <;> rfl

set_option maxHeartbeats 4000000 in
theorem expsum_eq (W : Valuation τ sig (Elt F)) :
    after opsC W (Proc.devRef .tc main_v46)
      = Host.reduceAdd (Layer.shiftedExp (Layer.leaky (Layer.logits (W (Proc.devRef .tc main_v34)) (W (Proc.devRef .tc main_v33)))))
          (constant Layer.Scalar .f32 0x00000000#32) Layer.reduce_edges Layer.scalar_pos := by
  after_results_simp <;> rfl

set_option maxHeartbeats 4000000 in
theorem opsC_sources (W : Valuation τ sig (Elt F)) :
    after opsC W (Proc.devRef .tc main_v33) = W (Proc.devRef .tc main_v33) := by
  after_results_simp

set_option maxHeartbeats 4000000 in
theorem opsC_destinations (W : Valuation τ sig (Elt F)) :
    after opsC W (Proc.devRef .tc main_v18) = W (Proc.devRef .tc main_v18) := by
  after_results_simp

/-! ## Operations 67 … 132: the scores, the messages, the segment sum -/

set_option maxRecDepth 8192 in
set_option maxHeartbeats 8000000 in
theorem summed_eq (W : Valuation τ sig (Elt F)) :
    after opsD W (Proc.devRef .tc main_v54)
      = Host.scatterAdd Layer.scatterEdges
          (broadcastInDim Layer.NodeRows ![] Layer.bcast_nodeRows (constant Layer.Scalar .f32 0x00000000#32))
          (broadcastInDim Layer.EdgesCol ![0] Layer.bcast_edgesCol (W (Proc.devRef .tc main_v18)))
          (mulf (broadcastInDim Layer.EdgeRows ![0, 1] Layer.bcast_edgesCol_rows
              (Host.divf (W (Proc.devRef .tc main_v45))
                (broadcastInDim Layer.EdgesCol ![0, 1] Layer.bcast_oneOne_edgesCol
                  (broadcastInDim Layer.OneOne ![1] Layer.bcast_oneOne (W (Proc.devRef .tc main_v46))))))
            (W (Proc.devRef .tc main_v33))) := by
  after_results_simp <;> rfl

/-! ## Operations 133 … 148: `relu` and the two cuts -/

set_option maxHeartbeats 4000000 in
theorem users_eq (W : Valuation τ sig (Elt F)) :
    after opsE W (Proc.devRef .tc main_v105)
      = Layer.usersOut (maximumf (W (Proc.devRef .tc main_v54))
          (broadcastInDim Layer.NodeRows ![] Layer.bcast_nodeRows (constant Layer.Scalar .f32 0x00000000#32))) := by
  after_results_simp <;> rfl

set_option maxHeartbeats 4000000 in
theorem entities_eq (W : Valuation τ sig (Elt F)) :
    after opsE W (Proc.devRef .tc main_v106)
      = Layer.entitiesOut (maximumf (W (Proc.devRef .tc main_v54))
          (broadcastInDim Layer.NodeRows ![] Layer.bcast_nodeRows (constant Layer.Scalar .f32 0x00000000#32))) := by
  after_results_simp <;> rfl

/-! ## The five stretches chained -/

theorem after_ops (V : Valuation τ sig (Elt F)) :
    after ops V = after opsE (after opsD (after opsC (after opsB (after opsA V)))) := by
  show after ((opsA ++ (opsB ++ opsC)) ++ (opsD ++ opsE)) V = _
  rw [after_append, after_append, after_append, after_append]

/-- The layer's result on the reference's two products. -/
abbrev layerOf (V : Valuation τ sig (Elt F)) : FVec F Layer.NodeRows .f32 :=
  Layer.aggregate
    (rowsProduct (Layer.table (V (Proc.devRef .tc main_arg0)) (V (Proc.devRef .tc main_arg1)) (V (Proc.devRef .tc main_arg5))
        (V (Proc.devRef .tc main_arg6))) (V (Proc.devRef .tc main_arg7)) (Layer.sources (V (Proc.devRef .tc main_arg2))))
    (rowsProduct (Layer.table (V (Proc.devRef .tc main_arg0)) (V (Proc.devRef .tc main_arg1)) (V (Proc.devRef .tc main_arg5))
        (V (Proc.devRef .tc main_arg6))) (V (Proc.devRef .tc main_arg7)) (Layer.destinations (V (Proc.devRef .tc main_arg2))))
    (Layer.destinations (V (Proc.devRef .tc main_arg2)))

theorem summed_all (V : Valuation τ sig (Elt F)) :
    maximumf (after opsD (after opsC (after opsB (after opsA V))) (Proc.devRef .tc main_v54))
      (broadcastInDim Layer.NodeRows ![] Layer.bcast_nodeRows (constant Layer.Scalar .f32 0x00000000#32)) = layerOf V := by
  rw [summed_eq, exps_eq, expsum_eq, opsC_sources, opsC_destinations, sources_product, destinations_product, destinations_eq,
    table_eq, opsA_edges, opsA_weight]
  rfl

/-- THE FIRST RESULT: the users' rows of the layer's result. -/
theorem users_all (V : Valuation τ sig (Elt F)) :
    after ops V (Proc.devRef .tc main_v105) = Layer.usersOut (layerOf V) := by
  rw [after_ops, users_eq, summed_all]

/-- THE SECOND RESULT: the entities' rows of the layer's result. -/
theorem entities_all (V : Valuation τ sig (Elt F)) :
    after ops V (Proc.devRef .tc main_v106) = Layer.entitiesOut (layerOf V) := by
  rw [after_ops, entities_eq, summed_all]

/-! ## No operation writes an argument -/

set_option maxRecDepth 8192 in
set_option maxHeartbeats 8000000 in
theorem kept_arg0 (V : Valuation τ sig (Elt F)) :
    after ops V (Proc.devRef .tc main_arg0) = V (Proc.devRef .tc main_arg0) := by
  simp only [ops, window0, window1, window2, opsA, opsB, opsC, opsD, opsE, List.cons_append, List.nil_append]
  after_results_simp

set_option maxRecDepth 8192 in
set_option maxHeartbeats 8000000 in
theorem kept_arg1 (V : Valuation τ sig (Elt F)) :
    after ops V (Proc.devRef .tc main_arg1) = V (Proc.devRef .tc main_arg1) := by
  simp only [ops, window0, window1, window2, opsA, opsB, opsC, opsD, opsE, List.cons_append, List.nil_append]
  after_results_simp

set_option maxRecDepth 8192 in
set_option maxHeartbeats 8000000 in
theorem kept_arg2 (V : Valuation τ sig (Elt F)) :
    after ops V (Proc.devRef .tc main_arg2) = V (Proc.devRef .tc main_arg2) := by
  simp only [ops, window0, window1, window2, opsA, opsB, opsC, opsD, opsE, List.cons_append, List.nil_append]
  after_results_simp

set_option maxRecDepth 8192 in
set_option maxHeartbeats 8000000 in
theorem kept_arg3 (V : Valuation τ sig (Elt F)) :
    after ops V (Proc.devRef .tc main_arg3) = V (Proc.devRef .tc main_arg3) := by
  simp only [ops, window0, window1, window2, opsA, opsB, opsC, opsD, opsE, List.cons_append, List.nil_append]
  after_results_simp

set_option maxRecDepth 8192 in
set_option maxHeartbeats 8000000 in
theorem kept_arg4 (V : Valuation τ sig (Elt F)) :
    after ops V (Proc.devRef .tc main_arg4) = V (Proc.devRef .tc main_arg4) := by
  simp only [ops, window0, window1, window2, opsA, opsB, opsC, opsD, opsE, List.cons_append, List.nil_append]
  after_results_simp

set_option maxRecDepth 8192 in
set_option maxHeartbeats 8000000 in
theorem kept_arg5 (V : Valuation τ sig (Elt F)) :
    after ops V (Proc.devRef .tc main_arg5) = V (Proc.devRef .tc main_arg5) := by
  simp only [ops, window0, window1, window2, opsA, opsB, opsC, opsD, opsE, List.cons_append, List.nil_append]
  after_results_simp

set_option maxRecDepth 8192 in
set_option maxHeartbeats 8000000 in
theorem kept_arg6 (V : Valuation τ sig (Elt F)) :
    after ops V (Proc.devRef .tc main_arg6) = V (Proc.devRef .tc main_arg6) := by
  simp only [ops, window0, window1, window2, opsA, opsB, opsC, opsD, opsE, List.cons_append, List.nil_append]
  after_results_simp

set_option maxRecDepth 8192 in
set_option maxHeartbeats 8000000 in
theorem kept_arg7 (V : Valuation τ sig (Elt F)) :
    after ops V (Proc.devRef .tc main_arg7) = V (Proc.devRef .tc main_arg7) := by
  simp only [ops, window0, window1, window2, opsA, opsB, opsC, opsD, opsE, List.cons_append, List.nil_append]
  after_results_simp

set_option maxRecDepth 8192 in
set_option maxHeartbeats 8000000 in
theorem kept_arg8 (V : Valuation τ sig (Elt F)) :
    after ops V (Proc.devRef .tc main_arg8) = V (Proc.devRef .tc main_arg8) := by
  simp only [ops, window0, window1, window2, opsA, opsB, opsC, opsD, opsE, List.cons_append, List.nil_append]
  after_results_simp

end Cert.ReferenceIdeal.RefValue

end
-- ==== Proof.lean ====
/-
  The certificate: one attention layer of a graph network, computed two ways.

  Both programs build the node embeddings (50000 users' rows, then 100000 entities' rows, each gathered from its table
  at the given row numbers) and run one layer over the 1500000 user-item edges: every edge takes its source's and its
  destination's transformed rows, its logit is their inner product through `leaky_relu`, the scores are the softmax of
  the logits over all edges, and each node receives the score-weighted sum of the transformed source rows of the edges
  that end in it, through `relu` (`Layer.aggregate`).

  They differ in where the transformation by `W` happens. The reference gathers the embedding rows of an edge's two
  ends and multiplies each gathered `[1500000, 64]` matrix by `W`. The kernel multiplies the whole `[150000, 64]` table
  by `W` once, in ten row blocks on the matrix unit (through a narrower float format, which is the identity on the
  extended reals), and gathers rows of the product. A row of the product depends on the table through that row alone,
  so gathering rows and multiplying by `W` commute (`RowsProduct.gather_rowsTimes`): the transformed rows agree entry
  by entry, as the same sum of 64 products, and everything after them is one function applied to equal arguments.
  The reference also computes a second layer over the knowledge-graph edges whose result nothing returned depends on;
  the kernel leaves it out.

  The equality holds for every content of the integer arguments (a row number out of range is clamped by both
  programs' gathers in the same way, an edge whose destination is no node is dropped by both segment sums) and uses no
  law of arithmetic beyond reading the same sum on both sides, so the precondition that the float inputs are finite is
  not opened.

  The kernel programs' frames are the generated frame certificates; the reference's frame is its run with the results
  dropped; the ideal pass rewrote nothing, so the idealization's statement is `True`.
-/
import proofs.«422671_j86955907875600_3_alg».proof.Defs
import proofs.«422671_j86955907875600_3_alg».proof.Proof.Gen.Kernel
import proofs.«422671_j86955907875600_3_alg».proof.Proof.Gen.Kernel.Skeleton
import proofs.«422671_j86955907875600_3_alg».proof.Proof.Gen.Kernel.Launch
import proofs.«422671_j86955907875600_3_alg».proof.Proof.Gen.Kernel.Points
import proofs.«422671_j86955907875600_3_alg».proof.Proof.Gen.Kernel.Frame
import proofs.«422671_j86955907875600_3_alg».proof.Proof.Gen.KernelIdeal
import proofs.«422671_j86955907875600_3_alg».proof.Proof.Gen.KernelIdeal.Skeleton
import proofs.«422671_j86955907875600_3_alg».proof.Proof.Gen.KernelIdeal.Launch
import proofs.«422671_j86955907875600_3_alg».proof.Proof.Gen.KernelIdeal.Points
import proofs.«422671_j86955907875600_3_alg».proof.Proof.Gen.KernelIdeal.Frame
import proofs.«422671_j86955907875600_3_alg».proof.Proof.Gen.ReferenceIdeal
import proofs.«422671_j86955907875600_3_alg».proof.Proof.Gen.Pre_finite_inputs
import proofs.«422671_j86955907875600_3_alg».proof.Proof.KernelRun
import proofs.«422671_j86955907875600_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-! ## The two ways of transforming the edges' rows agree -/

/-- Rows of the product "table times `W`" at a row of node numbers are the rows of the table there, times `W`. -/
theorem rows_agree (T : FVec Ideal Layer.NodeRows .f32) (W : FVec Ideal Layer.Square .f32) (nodes : IVec Layer.Edges 32) :
    Host.gather Layer.gatherEdges (Cert.RowsProduct.rowsTimes T W) (Layer.edgeColumn nodes)
      = Cert.ReferenceIdeal.RefValue.rowsProduct (F := Ideal) T W nodes :=
  Cert.RowsProduct.gather_rowsTimes (by decide) Layer.gatherEdges rfl rfl rfl rfl rfl Layer.gatherEdges rfl rfl rfl rfl rfl
    Layer.dotEdges rfl rfl rfl rfl rfl rfl none .single T W W (fun _ => rfl) (Layer.edgeColumn nodes)

/-- The layer's result is the same function of the arguments in both programs. -/
theorem layer_agree (users : IVec Layer.Users 32) (items : IVec Layer.Items 32) (edges : IVec Layer.EdgeList 32)
    (userTable : FVec Ideal Layer.UsersRows .f32) (entityTable : FVec Ideal Layer.ItemsRows .f32)
    (W : FVec Ideal Layer.Square .f32) :
    Layer.aggregate (F := Ideal)
        (Cert.ReferenceIdeal.RefValue.rowsProduct (Layer.table users items userTable entityTable) W (Layer.sources edges))
        (Cert.ReferenceIdeal.RefValue.rowsProduct (Layer.table users items userTable entityTable) W (Layer.destinations edges))
        (Layer.destinations edges)
      = Cert.KernelIdeal.Run.layerOf (Cert.RowsProduct.rowsTimes (Layer.table users items userTable entityTable) W) edges := by
  rw [← rows_agree, ← rows_agree]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped: no operation writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefValue.kept_arg0 _),
      (h c Cert.ReferenceIdeal.main_arg1).trans (Cert.ReferenceIdeal.RefValue.kept_arg1 _),
      (h c Cert.ReferenceIdeal.main_arg2).trans (Cert.ReferenceIdeal.RefValue.kept_arg2 _),
      (h c Cert.ReferenceIdeal.main_arg3).trans (Cert.ReferenceIdeal.RefValue.kept_arg3 _),
      (h c Cert.ReferenceIdeal.main_arg4).trans (Cert.ReferenceIdeal.RefValue.kept_arg4 _),
      (h c Cert.ReferenceIdeal.main_arg5).trans (Cert.ReferenceIdeal.RefValue.kept_arg5 _),
      (h c Cert.ReferenceIdeal.main_arg6).trans (Cert.ReferenceIdeal.RefValue.kept_arg6 _),
      (h c Cert.ReferenceIdeal.main_arg7).trans (Cert.ReferenceIdeal.RefValue.kept_arg7 _),
      (h c Cert.ReferenceIdeal.main_arg8).trans (Cert.ReferenceIdeal.RefValue.kept_arg8 _)⟩)
    (Cert.ReferenceIdeal.RefRun.run_after (F := Ideal) m ρ)

theorem preserves : Cert.preserves_Kernel_KernelIdeal := trivial

/-- Both programs run from memories that agree on the arguments, and end with the users' and the entities' rows of
    the same layer's result. -/
theorem algebraic : Cert.algebraic_KernelIdeal_ReferenceIdeal := by
  intro m ρ m' ρ' _ hagree
  refine ⟨fun c => Cert.KernelIdeal.Run.usersResult m c, fun c => Cert.KernelIdeal.Run.entitiesResult m c,
    Cert.KernelIdeal.Run.run m ρ, ?_⟩
  refine (θ_run Cert.ReferenceIdeal.defs _ _).mono (fun _ h c => ?_) (Cert.ReferenceIdeal.RefRun.run_after (F := Ideal) m' ρ')
  obtain ⟨e0, e1, e2, e3, e4, e5, e6, e7, e8⟩ := hagree c
  have hlayer : Cert.ReferenceIdeal.RefValue.layerOf (F := Ideal) (launchContents m' c)
      = Cert.KernelIdeal.Run.layerOf (Cert.RowsProduct.rowsTimes (Cert.KernelIdeal.Run.launchTable m c)
          (m ((c.tc : Thread Cert.KernelIdeal.nD Cert.KernelIdeal.τ).loc Cert.KernelIdeal.main_arg7)))
          (m ((c.tc : Thread Cert.KernelIdeal.nD Cert.KernelIdeal.τ).loc Cert.KernelIdeal.main_arg2)) := by
    show Layer.aggregate (F := Ideal)
        (Cert.ReferenceIdeal.RefValue.rowsProduct
          (Layer.table (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6)))
          (m' ((c.tc : Thread Cert.ReferenceIdeal.nD Cert.ReferenceIdeal.τ).loc Cert.ReferenceIdeal.main_arg7))
          (Layer.sources (m' ((c.tc : Thread Cert.ReferenceIdeal.nD Cert.ReferenceIdeal.τ).loc Cert.ReferenceIdeal.main_arg2))))
        (Cert.ReferenceIdeal.RefValue.rowsProduct
          (Layer.table (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6)))
          (m' ((c.tc : Thread Cert.ReferenceIdeal.nD Cert.ReferenceIdeal.τ).loc Cert.ReferenceIdeal.main_arg7))
          (Layer.destinations (m' ((c.tc : Thread Cert.ReferenceIdeal.nD Cert.ReferenceIdeal.τ).loc Cert.ReferenceIdeal.main_arg2))))
        (Layer.destinations (m' ((c.tc : Thread Cert.ReferenceIdeal.nD Cert.ReferenceIdeal.τ).loc Cert.ReferenceIdeal.main_arg2))) = _
    rw [e0, e1, e2, e5, e6, e7]
    exact layer_agree _ _ _ _ _ _
  refine ⟨(h c Cert.ReferenceIdeal.main_v105).trans ((Cert.ReferenceIdeal.RefValue.users_all _).trans (congrArg Layer.usersOut hlayer)),
    (h c Cert.ReferenceIdeal.main_v106).trans ((Cert.ReferenceIdeal.RefValue.entities_all _).trans (congrArg Layer.entitiesOut hlayer)),
    (h c Cert.ReferenceIdeal.main_arg0).trans (Cert.ReferenceIdeal.RefValue.kept_arg0 _),
    (h c Cert.ReferenceIdeal.main_arg1).trans (Cert.ReferenceIdeal.RefValue.kept_arg1 _),
    (h c Cert.ReferenceIdeal.main_arg2).trans (Cert.ReferenceIdeal.RefValue.kept_arg2 _),
    (h c Cert.ReferenceIdeal.main_arg3).trans (Cert.ReferenceIdeal.RefValue.kept_arg3 _),
    (h c Cert.ReferenceIdeal.main_arg4).trans (Cert.ReferenceIdeal.RefValue.kept_arg4 _),
    (h c Cert.ReferenceIdeal.main_arg5).trans (Cert.ReferenceIdeal.RefValue.kept_arg5 _),
    (h c Cert.ReferenceIdeal.main_arg6).trans (Cert.ReferenceIdeal.RefValue.kept_arg6 _),
    (h c Cert.ReferenceIdeal.main_arg7).trans (Cert.ReferenceIdeal.RefValue.kept_arg7 _),
    (h c Cert.ReferenceIdeal.main_arg8).trans (Cert.ReferenceIdeal.RefValue.kept_arg8 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
